-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x3 : Shape := ⟨2, ![1600000, 3]⟩
abbrev S100000 : Shape := ⟨1, ![100000]⟩
abbrev S3x32 : Shape := ⟨2, ![3, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S3x128 : Shape := ⟨2, ![3, 128]⟩
abbrev S128x1 : Shape := ⟨2, ![128, 1]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg1 : IVec S2x1600000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : IVec S1x1600000 32 := (extractStridedSlice S1x1600000 ![0, 0] · slices_S2x1600000_S1x1600000_0_0) main_arg1
  let main_v90 : IVec S1600000 32 := shapeCast S1600000 main_v89 shapeCasts_S1x1600000_S1600000
  let main_c_34 : IVec S_ 32 := constantI S_ 32 0#32
  let main_v91 : IVec S1600000 32 := broadcastInDim S1600000 ![] bcast_S_S1600000 main_c_34
  let main_v92 : IVec S1600000 1 := cmpi .sge main_v90 main_v91
  let main_v93 : IVec S1x1600000 32 := (extractStridedSlice S1x1600000 ![0, 0] · slices_S2x1600000_S1x1600000_0_0) main_arg1
  let main_v94 : IVec S1600000 32 := shapeCast S1600000 main_v93 shapeCasts_S1x1600000_S1600000
  let main_c_35 : IVec S_ 32 := constantI S_ 32 100000#32
  let main_v95 : IVec S1600000 32 := broadcastInDim S1600000 ![] bcast_S_S1600000 main_c_35
  let main_v96 : IVec S1600000 1 := cmpi .slt main_v94 main_v95
  let main_v97 : IVec S1600000 1 := andi main_v92 main_v96
  let main_c_36 : IVec S_ 1 := constantI S_ 1 1#1
  let main_v98 : IVec S_ 1 := (fun x v => Host.reduce IntOp.andi x v reducesTo_S1600000_S_d0 h_S_) main_v97 main_c_36
  let main_v99 : IVec S_ 1 := andi main_v88 main_v98
  main_v99

def fn_part4 {F : FTy → Type} [FloatOps F] (main_arg1 : IVec S2x1600000 32) (main_arg16 : FVec F S128x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_arg1 main_v83 main_v84 main_cst_32

def fn_part3 {F : FTy → Type} [FloatOps F] (main_arg1 : IVec S2x1600000 32) (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg16 main_arg17 main_arg18 main_arg19 main_v63 main_v67

def fn_part2 {F : FTy → Type} [FloatOps F] (main_arg1 : IVec S2x1600000 32) (main_arg9 : FVec F S128 .f32) (main_arg10 : FVec F S3x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg1 main_arg13 main_arg14 main_arg15 main_arg16 main_arg17 main_arg18 main_arg19 main_v48 main_v49 main_v50

def fn_part1 {F : FTy → Type} [FloatOps F] (main_arg1 : IVec S2x1600000 32) (main_arg6 : FVec F S32x128 .f32) (main_arg7 : FVec F S128 .f32) (main_arg8 : FVec F S128x128 .f32) (main_arg9 : FVec F S128 .f32) (main_arg10 : FVec F S3x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x128 .f32 := Host.absf main_arg6
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_arg19 main_v33

def fn {F : FTy → Type} [FloatOps F] (main_arg0 : FVec F S100000x32 .f32) (main_arg1 : IVec S2x1600000 32) (main_arg2 : FVec F S1600000x3 .f32) (main_arg3 : IVec S100000 32) (main_arg4 : FVec F S3x32 .f32) (main_arg5 : FVec F S32 .f32) (main_arg6 : FVec F S32x128 .f32) (main_arg7 : FVec F S128 .f32) (main_arg8 : FVec F S128x128 .f32) (main_arg9 : FVec F S128 .f32) (main_arg10 : FVec F S3x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x1 .f32) (main_arg19 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S3x32 .f32 := Host.absf main_arg4
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg6 main_arg7 main_arg8 main_arg9 main_arg10 main_arg11 main_arg12 main_arg13 main_arg14 main_arg15 main_arg16 main_arg17 main_arg18 main_arg19 main_v13 main_v16
-- ==== Kernel.lean ====
abbrev S100000x32 : Shape := ⟨2, ![100000, 32]⟩
abbrev S2x1600000 : Shape := ⟨2, ![2, 1600000]⟩
abbrev S1600000x3 : Shape := ⟨2, ![1600000, 3]⟩
abbrev S100000 : Shape := ⟨1, ![100000]⟩
abbrev S3x32 : Shape := ⟨2, ![3, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x32 : Shape := ⟨2, ![1600000, 32]⟩
abbrev S1x32 : Shape := ⟨2, ![1, 32]⟩
abbrev S2000x32 : Shape := ⟨2, ![2000, 32]⟩
abbrev S2000x3 : Shape := ⟨2, ![2000, 3]⟩
abbrev S1x128 : Shape := ⟨2, ![1, 128]⟩
abbrev S100000x128 : Shape := ⟨2, ![100000, 128]⟩
abbrev S5000x32 : Shape := ⟨2, ![5000, 32]⟩
abbrev S5000x128 : Shape := ⟨2, ![5000, 128]⟩
abbrev S1600000x128 : Shape := ⟨2, ![1600000, 128]⟩
abbrev S2000x128 : Shape := ⟨2, ![2000, 128]⟩
abbrev S2048x128 : Shape := ⟨2, ![2048, 128]⟩
abbrev S100000x1 : Shape := ⟨2, ![100000, 1]⟩
abbrev S2048x1 : Shape := ⟨2, ![2048, 1]⟩

abbrev nBuf : Space → Nat
  | .hbm => 95
  | .vmem => 42
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x3, .f32⟩
  | .hbm, ⟨3, _⟩ => ⟨S100000, .i32⟩
  | .hbm, ⟨4, _⟩ => ⟨S3x32, .f32⟩
  | .hbm, ⟨5, _⟩ => ⟨S32, .f32⟩
  | .hbm, ⟨6, _⟩ => ⟨S32x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S3x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x32, .f32⟩
  | .hbm, ⟨43, _⟩ => ⟨S1600000x32, .i1⟩
  | .hbm, ⟨44, _⟩ => ⟨S_, .f32⟩
  | .hbm, ⟨45, _⟩ => ⟨S1600000x32, .f32⟩
  | .hbm, ⟨46, _⟩ => ⟨S1600000x32, .f32⟩
  | .hbm, ⟨47, _⟩ => ⟨S1x32, .f32⟩
  | .hbm, ⟨48, _⟩ => ⟨S1600000x32, .f32⟩
  | .hbm, ⟨49, _⟩ => ⟨S_, .f32⟩
  | .hbm, ⟨50, _⟩ => ⟨S100000x32, .f32⟩
  | .hbm, ⟨51, _⟩ => ⟨S1600000x1, .i32⟩
  | .hbm, ⟨52, _⟩ => ⟨S100000x32, .f32⟩
  | .hbm, ⟨53, _⟩ => ⟨S1x128, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x128, .f32⟩
  | .hbm, ⟨75, _⟩ => ⟨S1600000x128, .i1⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S1x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S1x128, .f32⟩
  | .hbm, ⟨86, _⟩ => ⟨S1x128, .f32⟩
  | .hbm, ⟨87, _⟩ => ⟨S100000x128, .f32⟩
  | .hbm, ⟨88, _⟩ => ⟨S_, .f32⟩
  | .hbm, ⟨89, _⟩ => ⟨S2048x128, .f32⟩
  | .hbm, ⟨90, _⟩ => ⟨S100000x1, .i32⟩
  | .hbm, ⟨91, _⟩ => ⟨S2048x128, .f32⟩
  | .hbm, ⟨92, _⟩ => ⟨S1x128, .f32⟩
  | .hbm, ⟨93, _⟩ => ⟨S1x1, .f32⟩
  | .hbm, ⟨94, _⟩ => ⟨S2048x1, .f32⟩
  | .local _ .vmem, ⟨0, _⟩ => ⟨S2000x32, .f32⟩
  | .local _ .vmem, ⟨1, _⟩ => ⟨S2000x32, .f32⟩
  | .local _ .vmem, ⟨2, _⟩ => ⟨S2000x3, .f32⟩
  | .local _ .vmem, ⟨3, _⟩ => ⟨S2000x3, .f32⟩
  | .local _ .vmem, ⟨4, _⟩ => ⟨S3x32, .f32⟩
  | .local _ .vmem, ⟨5, _⟩ => ⟨S1x32, .f32⟩
  | .local _ .vmem, ⟨6, _⟩ => ⟨S2000x32, .f32⟩
  | .local _ .vmem, ⟨7, _⟩ => ⟨S2000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S2000x128, .f32⟩
  | .local _ .vmem, ⟨19, _⟩ => ⟨S2000x128, .f32⟩
  | .local _ .vmem, ⟨20, _⟩ => ⟨S2000x3, .f32⟩
  | .local _ .vmem, ⟨21, _⟩ => ⟨S2000x3, .f32⟩
  | .local _ .vmem, ⟨22, _⟩ => ⟨S3x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S2048x128, .f32⟩
  | .local _ .vmem, ⟨37, _⟩ => ⟨S128x128, .f32⟩
  | .local _ .vmem, ⟨38, _⟩ => ⟨S1x128, .f32⟩
  | .local _ .vmem, ⟨39, _⟩ => ⟨S128x1, .f32⟩
  | .local _ .vmem, ⟨40, _⟩ => ⟨S1x1, .f32⟩
  | .local _ .vmem, ⟨41, _⟩ => ⟨S2048x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_cst_0 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_cst_1 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![800], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S2048x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2048x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  shapeCasts_S32_S1x32 : S32.ShapeCasts S1x32
  inb_S2000x3_S2000x3_0_0 : ∀ a, (![0, 0] : Fin 2 → Nat) a + S2000x3.size a ≤ S2000x3.size a
  h_S2000x3 : 0 < S2000x3.numel
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bcast_S_S100000x32 : S_.BroadcastsInDim S100000x32 (![] : Fin 0 → Fin S100000x32.rank)
  shapeCasts_S128_S1x128 : S128.ShapeCasts S1x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S3x128_S3x128_0_0 : ∀ a, (![0, 0] : Fin 2 → Nat) a + S3x128.size a ≤ S3x128.size a
  h_S3x128 : 0 < S3x128.numel
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bcast_S_S100000x128 : S_.BroadcastsInDim S100000x128 (![] : Fin 0 → Fin S100000x128.rank)
  shapeCasts_S5000x128_S5000x128 : S5000x128.ShapeCasts S5000x128
  bcast_S_S2048x128 : S_.BroadcastsInDim S2048x128 (![] : Fin 0 → Fin S2048x128.rank)
  bcast_S100000_S100000x1_0 : S100000.BroadcastsInDim S100000x1 (![0] : Fin 1 → Fin S100000x1.rank)
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S100000x32_S1600000x1_S1600000x32_1_0_n_n_0_1_132_wf : GatherDims.WF S100000x32 S1600000x1 S1600000x32 [1] [0] [] [0] [] 1 ![1, 32]
  dot_S2000x3_S3x32_S2000x32_1_0_0_1_n_n_wf : DotDims.WF S2000x3 S3x32 S2000x32 [1] [0] [0] [1] [] []
  scatter_S100000x32_S1600000x1_S1600000x32_1_0_0_1_wf : ScatterDims.WF S100000x32 S1600000x1 S1600000x32 [1] [0] [0] 1
  dot_S5000x32_S32x128_S5000x128_1_0_0_1_n_n_wf : DotDims.WF S5000x32 S32x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  dot_S2000x3_S3x128_S2000x128_1_0_0_1_n_n_wf : DotDims.WF S2000x3 S3x128 S2000x128 [1] [0] [0] [1] [] []
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S1600000x32.size a
  hwx0_0 : ∀ i : grid0.Coords, EltTy.bits .f32 = 32 ∨ (Rect.block (s := S1600000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S1600000x3.size a
  hwx0_1 : ∀ i : grid0.Coords, EltTy.bits .f32 = 32 ∨ (Rect.block (s := S1600000x3) S2000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S1600000x32.size a
  hwx0_4 : ∀ i : grid0.Coords, EltTy.bits .f32 = 32 ∨ (Rect.block (s := S1600000x32) S2000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S1600000x128.size a
  hwx2_0 : ∀ i : grid2.Coords, EltTy.bits .f32 = 32 ∨ (Rect.block (s := S1600000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x3.size a ≤ S1600000x3.size a
  hwx2_1 : ∀ i : grid2.Coords, EltTy.bits .f32 = 32 ∨ (Rect.block (s := S1600000x3) S2000x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128.size a ≤ S3x128.size a
  hwx2_2 : ∀ i : grid2.Coords, EltTy.bits .f32 = 32 ∨ (Rect.block (s := S3x128) S3x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S1600000x128.size a
  hwx2_4 : ∀ i : grid2.Coords, EltTy.bits .f32 = 32 ∨ (Rect.block (s := S1600000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S2048x128.size a
  hwx4_0 : ∀ i : grid4.Coords, EltTy.bits .f32 = 32 ∨ (Rect.block (s := S2048x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2048x1.size a ≤ S2048x1.size a
  hwx4_5 : ∀ i : grid4.Coords, EltTy.bits .f32 = 32 ∨ (Rect.block (s := S2048x1) S2048x1.size (cc4_transform_5 i) (hinb4_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S2000x3_S3x32_S2000x32_1_0_0_1_n_n : DotDims S2000x3 S3x32 S2000x32 where
  lhsContracting := [1]
  rhsContracting := [0]
  lhsNonContracting := [0]
  rhsNonContracting := [1]
  lhsBatch := []
  rhsBatch := []
  wf := dot_S2000x3_S3x32_S2000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S2000x3_S3x128_S2000x128_1_0_0_1_n_n : DotDims S2000x3 S3x128 S2000x128 where
  lhsContracting := [1]
  rhsContracting := [0]
  lhsNonContracting := [0]
  rhsNonContracting := [1]
  lhsBatch := []
  rhsBatch := []
  wf := dot_S2000x3_S3x128_S2000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v4) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S2000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S3x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v12) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v24) S2048x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v26) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v27) S2048x1.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x3 : Shape := ⟨2, ![1600000, 3]⟩
abbrev S100000 : Shape := ⟨1, ![100000]⟩
abbrev S3x32 : Shape := ⟨2, ![3, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S100000x128 : Shape := ⟨2, ![100000, 128]⟩
abbrev S1x128 : Shape := ⟨2, ![1, 128]⟩
abbrev S1600000x128 : Shape := ⟨2, ![1600000, 128]⟩
abbrev S2048x128 : Shape := ⟨2, ![2048, 128]⟩
abbrev S100000x1 : Shape := ⟨2, ![100000, 1]⟩
abbrev S2048x1 : Shape := ⟨2, ![2048, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x3, .f32⟩
  | .hbm, ⟨3, _⟩ => ⟨S100000, .i32⟩
  | .hbm, ⟨4, _⟩ => ⟨S3x32, .f32⟩
  | .hbm, ⟨5, _⟩ => ⟨S32, .f32⟩
  | .hbm, ⟨6, _⟩ => ⟨S32x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S3x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x32, .f32⟩
  | .hbm, ⟨33, _⟩ => ⟨S1600000x32, .f32⟩
  | .hbm, ⟨34, _⟩ => ⟨S1600000x32, .f32⟩
  | .hbm, ⟨35, _⟩ => ⟨S1x32, .f32⟩
  | .hbm, ⟨36, _⟩ => ⟨S1600000x32, .f32⟩
  | .hbm, ⟨37, _⟩ => ⟨S1600000x32, .f32⟩
  | .hbm, ⟨38, _⟩ => ⟨S_, .f32⟩
  | .hbm, ⟨39, _⟩ => ⟨S1600000x32, .f32⟩
  | .hbm, ⟨40, _⟩ => ⟨S1600000x32, .f32⟩
  | .hbm, ⟨41, _⟩ => ⟨S_, .f32⟩
  | .hbm, ⟨42, _⟩ => ⟨S100000x32, .f32⟩
  | .hbm, ⟨43, _⟩ => ⟨S1600000x1, .i32⟩
  | .hbm, ⟨44, _⟩ => ⟨S100000x32, .f32⟩
  | .hbm, ⟨45, _⟩ => ⟨S100000x32, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x128, .f32⟩
  | .hbm, ⟨70, _⟩ => ⟨S1600000x128, .f32⟩
  | .hbm, ⟨71, _⟩ => ⟨S1x128, .f32⟩
  | .hbm, ⟨72, _⟩ => ⟨S1600000x128, .f32⟩
  | .hbm, ⟨73, _⟩ => ⟨S1600000x128, .f32⟩
  | .hbm, ⟨74, _⟩ => ⟨S_, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S2048x128, .f32⟩
  | .hbm, ⟨98, _⟩ => ⟨S100000x1, .i32⟩
  | .hbm, ⟨99, _⟩ => ⟨S2048x128, .f32⟩
  | .hbm, ⟨100, _⟩ => ⟨S2048x128, .f32⟩
  | .hbm, ⟨101, _⟩ => ⟨S1x128, .f32⟩
  | .hbm, ⟨102, _⟩ => ⟨S2048x128, .f32⟩
  | .hbm, ⟨103, _⟩ => ⟨S2048x128, .f32⟩
  | .hbm, ⟨104, _⟩ => ⟨S_, .f32⟩
  | .hbm, ⟨105, _⟩ => ⟨S2048x128, .f32⟩
  | .hbm, ⟨106, _⟩ => ⟨S2048x128, .f32⟩
  | .hbm, ⟨107, _⟩ => ⟨S2048x1, .f32⟩
  | .hbm, ⟨108, _⟩ => ⟨S1x1, .f32⟩
  | .hbm, ⟨109, _⟩ => ⟨S2048x1, .f32⟩
  | .hbm, ⟨110, _⟩ => ⟨S2048x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call0_cst : Ref sig .tc := ⟨.hbm, 38, rfl⟩
abbrev main_call0_v0 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call1_cst : Ref sig .tc := ⟨.hbm, 50, rfl⟩
abbrev main_call1_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call2_cst : Ref sig .tc := ⟨.hbm, 57, rfl⟩
abbrev main_call2_v0 : Ref sig .tc := ⟨.hbm, 58, rfl⟩
abbrev main_v30 : Ref sig .tc := ⟨.hbm, 59, rfl⟩
abbrev main_c_1 : Ref sig .tc := ⟨.hbm, 60, rfl⟩
abbrev main_v31 : Ref sig .tc := ⟨.hbm, 61, rfl⟩
abbrev main_v32 : Ref sig .tc := ⟨.hbm, 62, rfl⟩
abbrev main_c_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_call3_cst : Ref sig .tc := ⟨.hbm, 74, rfl⟩
abbrev main_call3_v0 : Ref sig .tc := ⟨.hbm, 75, rfl⟩
abbrev main_v43 : Ref sig .tc := ⟨.hbm, 76, rfl⟩
abbrev main_cst_3 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_call4_cst : Ref sig .tc := ⟨.hbm, 86, rfl⟩
abbrev main_call4_v0 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call5_cst : Ref sig .tc := ⟨.hbm, 93, rfl⟩
abbrev main_call5_v0 : Ref sig .tc := ⟨.hbm, 94, rfl⟩
abbrev main_v57 : Ref sig .tc := ⟨.hbm, 95, rfl⟩
abbrev main_cst_4 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_call6_cst : Ref sig .tc := ⟨.hbm, 104, rfl⟩
abbrev main_call6_v0 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S1x128_S2048x128_0_1 : S1x128.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S100000x32_S1600000x1_S1600000x32_1_0_n_n_0_1_132_wf : GatherDims.WF S100000x32 S1600000x1 S1600000x32 [1] [0] [] [0] [] 1 ![1, 32]
  dot_S1600000x3_S3x32_S1600000x32_1_0_0_1_n_n_wf : DotDims.WF S1600000x3 S3x32 S1600000x32 [1] [0] [0] [1] [] []
  scatter_S100000x32_S1600000x1_S1600000x32_1_0_0_1_wf : ScatterDims.WF S100000x32 S1600000x1 S1600000x32 [1] [0] [0] 1
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x3_S3x128_S1600000x128_1_0_0_1_n_n_wf : DotDims.WF S1600000x3 S3x128 S1600000x128 [1] [0] [0] [1] [] []
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x3_S3x32_S1600000x32_1_0_0_1_n_n : DotDims S1600000x3 S3x32 S1600000x32 where
  lhsContracting := [1]
  rhsContracting := [0]
  lhsNonContracting := [0]
  rhsNonContracting := [1]
  lhsBatch := []
  rhsBatch := []
  wf := dot_S1600000x3_S3x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x3_S3x128_S1600000x128_1_0_0_1_n_n : DotDims S1600000x3 S3x128 S1600000x128 where
  lhsContracting := [1]
  rhsContracting := [0]
  lhsNonContracting := [0]
  rhsNonContracting := [1]
  lhsBatch := []
  rhsBatch := []
  wf := dot_S1600000x3_S3x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.Spec.lean ====
/-
  The network both programs compute, stage by stage, as whole-array functions of arrays (no memory, no program):
  an edge's message is relu(x_src + edge_attr·We + be); a node's aggregate is the sum of the messages of the edges
  that point at it; a node's update is relu(relu((x + agg)·Wa + ba)·Wb + bb); a graph's pooled vector is the sum of its
  nodes' rows; the readout is relu(pooled·Wm1 + bm1)·Wm2 + bm2. Each stage is written with the host operations the
  reference's own composed term is made of, so that term IS `out` below by unfolding; the kernel's regions are
  proved equal to the same stages index by index elsewhere.
-/
import proofs.«408218_j49898930045492_2_alg».proof.Proof.Gen.ReferenceIdeal

noncomputable section

namespace Cert.Spec

open Cert.ReferenceIdeal Cert.ReferenceIdeal.Gen Idealize.ShloMosaic

variable {F : FTy → Type} [FloatOps F]

/-- Row 0 of the edge list: each edge's source node. -/
def src (a1 : IVec S2x1600000 32) : IVec S1600000 32 :=
  shapeCast _ (extractStridedSlice S1x1600000 ![0, 0] a1 slices_S2x1600000_S1x1600000_0_0) shapeCasts_S1x1600000_S1600000

/-- Row 1 of the edge list: each edge's target node. -/
def dst (a1 : IVec S2x1600000 32) : IVec S1600000 32 :=
  shapeCast _ (extractStridedSlice S1x1600000 ![1, 0] a1 slices_S2x1600000_S1x1600000_1_0) shapeCasts_S1x1600000_S1600000

/-- A node index with a negative value counted from the end, as a column of start indices. -/
def wrap (s : IVec S1600000 32) : IVec S1600000x1 32 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- The rows of a 32-wide node table at the edges' sources. -/
def rows32 (x : FVec F S100000x32 .f32) (s : IVec S1600000 32) : FVec F S1600000x32 .f32 :=
  Host.gather gather_S100000x32_S1600000x1_S1600000x32_1_0_n_n_0_1_132 x (wrap s)

/-- The rows of a 128-wide node table at the edges' sources. -/
def rows128 (h : FVec F S100000x128 .f32) (s : IVec S1600000 32) : FVec F S1600000x128 .f32 :=
  Host.gather gather_S100000x128_S1600000x1_S1600000x128_1_0_n_n_0_1_1128 h (wrap s)

/-- A bias vector as a one-row matrix. -/
def row32 (b : FVec F S32 .f32) : FVec F S1x32 .f32 := broadcastInDim S1x32 ![1] bcast_S32_S1x32_1 b
def row128 (b : FVec F S128 .f32) : FVec F S1x128 .f32 := broadcastInDim S1x128 ![1] bcast_S128_S1x128_1 b
def row1 (b : FVec F S1 .f32) : FVec F S1x1 .f32 := broadcastInDim S1x1 ![1] bcast_S1_S1x1_1 b

/-- The 32-wide messages: relu((x_src + edge_attr·We) + be). -/
def msg32 (xs : FVec F S1600000x32 .f32) (ea : FVec F S1600000x3 .f32) (we : FVec F S3x32 .f32) (be : FVec F S1x32 .f32) : FVec F S1600000x32 .f32 :=
  maximumf (addf (addf xs (Host.dotGeneral dot_S1600000x3_S3x32_S1600000x32_1_0_0_1_n_n none ea we)) (broadcastInDim S1600000x32 ![0, 1] bcast_S1x32_S1600000x32_0_1 be)) (broadcastInDim S1600000x32 ![] bcast_S_S1600000x32 (constant S_ .f32 0x00000000#32))

/-- The 128-wide messages. -/
def msg128 (xs : FVec F S1600000x128 .f32) (ea : FVec F S1600000x3 .f32) (we : FVec F S3x128 .f32) (be : FVec F S1x128 .f32) : FVec F S1600000x128 .f32 :=
  maximumf (addf (addf xs (Host.dotGeneral dot_S1600000x3_S3x128_S1600000x128_1_0_0_1_n_n none ea we)) (broadcastInDim S1600000x128 ![0, 1] bcast_S1x128_S1600000x128_0_1 be)) (broadcastInDim S1600000x128 ![] bcast_S_S1600000x128 (constant S_ .f32 0x00000000#32))

/-- Each node's sum of the 32-wide messages pointing at it. -/
def agg32 (d : IVec S1600000 32) (msg : FVec F S1600000x32 .f32) : FVec F S100000x32 .f32 :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 d) msg

/-- Each node's sum of the 128-wide messages pointing at it. -/
def agg128 (d : IVec S1600000 32) (msg : FVec F S1600000x128 .f32) : FVec F S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) msg

/-- The first node update: relu(relu((x + agg)·Wa + ba)·Wb + bb), 32 → 128 → 128. -/
def node32 (x agg : FVec F S100000x32 .f32) (wa : FVec F S32x128 .f32) (ba : FVec F S1x128 .f32) (wb : FVec F S128x128 .f32) (bb : FVec F S1x128 .f32) : FVec F S100000x128 .f32 :=
  maximumf (addf (Host.dotGeneral dot_S100000x128_S128x128_S100000x128_1_0_0_1_n_n none (maximumf (addf (Host.dotGeneral dot_S100000x32_S32x128_S100000x128_1_0_0_1_n_n none (addf x agg) wa) (broadcastInDim S100000x128 ![0, 1] bcast_S1x128_S100000x128_0_1 ba)) (broadcastInDim S100000x128 ![] bcast_S_S100000x128 (constant S_ .f32 0x00000000#32))) wb) (broadcastInDim S100000x128 ![0, 1] bcast_S1x128_S100000x128_0_1 bb)) (broadcastInDim S100000x128 ![] bcast_S_S100000x128 (constant S_ .f32 0x00000000#32))

/-- The second node update, 128 → 128 → 128. -/
def node128 (x agg : FVec F S100000x128 .f32) (wa : FVec F S128x128 .f32) (ba : FVec F S1x128 .f32) (wb : FVec F S128x128 .f32) (bb : FVec F S1x128 .f32) : FVec F S100000x128 .f32 :=
  maximumf (addf (Host.dotGeneral dot_S100000x128_S128x128_S100000x128_1_0_0_1_n_n none (maximumf (addf (Host.dotGeneral dot_S100000x128_S128x128_S100000x128_1_0_0_1_n_n none (addf x agg) wa) (broadcastInDim S100000x128 ![0, 1] bcast_S1x128_S100000x128_0_1 ba)) (broadcastInDim S100000x128 ![] bcast_S_S100000x128 (constant S_ .f32 0x00000000#32))) wb) (broadcastInDim S100000x128 ![0, 1] bcast_S1x128_S100000x128_0_1 bb)) (broadcastInDim S100000x128 ![] bcast_S_S100000x128 (constant S_ .f32 0x00000000#32))

/-- Each graph's sum of its nodes' rows. -/
def pool (b : IVec S100000 32) (h : FVec F S100000x128 .f32) : FVec F S2048x128 .f32 :=
  Host.scatterAdd scatter_S2048x128_S100000x1_S100000x128_1_0_0_1 (broadcastInDim S2048x128 ![] bcast_S_S2048x128 (constant S_ .f32 0x00000000#32)) (broadcastInDim S100000x1 ![0] bcast_S100000_S100000x1_0 b) h

/-- The readout: relu(pooled·Wm1 + bm1)·Wm2 + bm2. -/
def readout (p : FVec F S2048x128 .f32) (w1 : FVec F S128x128 .f32) (b1 : FVec F S1x128 .f32) (w2 : FVec F S128x1 .f32) (b2 : FVec F S1x1 .f32) : FVec F S2048x1 .f32 :=
  addf (Host.dotGeneral dot_S2048x128_S128x1_S2048x1_1_0_0_1_n_n none (maximumf (addf (Host.dotGeneral dot_S2048x128_S128x128_S2048x128_1_0_0_1_n_n none p w1) (broadcastInDim S2048x128 ![0, 1] bcast_S1x128_S2048x128_0_1 b1)) (broadcastInDim S2048x128 ![] bcast_S_S2048x128 (constant S_ .f32 0x00000000#32))) w2) (broadcastInDim S2048x1 ![0, 1] bcast_S1x1_S2048x1_0_1 b2)

/-- The first layer's node features, from the inputs. -/
def h1 (a0 : FVec F S100000x32 .f32) (a1 : IVec S2x1600000 32) (a2 : FVec F S1600000x3 .f32) (a4 : FVec F S3x32 .f32) (a5 : FVec F S32 .f32)
    (a6 : FVec F S32x128 .f32) (a7 : FVec F S128 .f32) (a8 : FVec F S128x128 .f32) (a9 : FVec F S128 .f32) : FVec F S100000x128 .f32 :=
  node32 a0 (agg32 (dst a1) (msg32 (rows32 a0 (src a1)) a2 a4 (row32 a5))) a6 (row128 a7) a8 (row128 a9)

/-- The second layer's node features, from the first layer's. -/
def h2 (g : FVec F S100000x128 .f32) (a1 : IVec S2x1600000 32) (a2 : FVec F S1600000x3 .f32) (a10 : FVec F S3x128 .f32) (a11 : FVec F S128 .f32)
    (a12 : FVec F S128x128 .f32) (a13 : FVec F S128 .f32) (a14 : FVec F S128x128 .f32) (a15 : FVec F S128 .f32) : FVec F S100000x128 .f32 :=
  node128 g (agg128 (dst a1) (msg128 (rows128 g (src a1)) a2 a10 (row128 a11))) a12 (row128 a13) a14 (row128 a15)

end Cert.Spec

end
-- ==== Proof.RefSpec.lean ====
/-
  The reference's composed term is the network of Spec.lean applied to the argument arrays: the two are the same
  tree of host operations, so the equation holds by unfolding the stage definitions.
-/
import proofs.«408218_j49898930045492_2_alg».proof.Proof.Gen.ReferenceIdeal.Run
import proofs.«408218_j49898930045492_2_alg».proof.Proof.Spec

noncomputable section

namespace Cert.RefSpec

open Cert.ReferenceIdeal Cert.ReferenceIdeal.Gen Idealize.ShloMosaic Idealize.ShloMosaic.TcCoe Idealize.SL.Sem

variable {F : FTy → Type} [FloatOps F]

/-- The whole network on a memory's argument arrays (the reference's locations). -/
def out (m : (ℓ : Loc nD τ sig) → Buf (Elt F) ℓ) (c : Dev nD) : Buf (Elt F) ((c.tc : Thread nD τ).loc main_v69) :=
  Spec.readout
    (Spec.pool (m ((c.tc : Thread nD τ).loc main_arg3))
      (Spec.h2
        (Spec.h1 (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)))
        (m ((c.tc : Thread nD τ).loc main_arg1)) (m ((c.tc : Thread nD τ).loc main_arg2)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)) (m ((c.tc : Thread nD τ).loc main_arg15))))
    (m ((c.tc : Thread nD τ).loc main_arg16)) (Spec.row128 (m ((c.tc : Thread nD τ).loc main_arg17)))
    (m ((c.tc : Thread nD τ).loc main_arg18)) (Spec.row1 (m ((c.tc : Thread nD τ).loc main_arg19)))

set_option maxRecDepth 8192 in
/-- The reference run's result term is that network. -/
theorem res_eq (m : (ℓ : Loc nD τ sig) → Buf (Elt F) ℓ) (c : Dev nD) : Value.res_main_v69 m c = out m c := by
  unfold Value.res_main_v69 out Spec.readout Spec.pool Spec.h2 Spec.h1 Spec.node128 Spec.node32 Spec.agg128 Spec.agg32 Spec.msg128 Spec.msg32
    Spec.rows128 Spec.rows32 Spec.row128 Spec.row32 Spec.row1 Spec.wrap Spec.src Spec.dst
  rfl

end Cert.RefSpec

end
-- ==== Proof.TakeDefs.lean ====
/-
  The kernel program's FILLING take of a node table at the edges' sources, as one term: the index wrapped, the
  per-edge range test, the gather, and the select that fills a row whose index fails the test; and the property of
  the sources under which it is a plain gather.
-/
import Idealize.ShloMosaic.PureOps.Ideal
import proofs.«408218_j49898930045492_2_alg».proof.Proof.Gen.KernelIdeal

noncomputable section

namespace Cert.KTake

open Idealize.ShloMosaic
open Cert.KernelIdeal Cert.KernelIdeal.Gen

variable {F : FTy → Type} [FloatOps F]

/-- The wrapped source index as the kernel's program computes it (a column of start indices). -/
def widx (s : IVec S1600000 32) : IVec S1600000x1 32 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- The per-edge test "the wrapped index is in [0, 99999]". -/
def valid (s : IVec S1600000 32) : IVec S1600000 1 :=
  Host.reduce IntOp.andi (andi (cmpi .sge (widx s) (broadcastInDim S1600000x1 ![] bcast_S_S1600000x1 (constantI S_ 32 0#32))) (cmpi .sle (widx s) (broadcastInDim S1600000x1 ![0, 1] bcast_S1x1_S1600000x1_0_1 (broadcastInDim S1x1 ![1] bcast_S1_S1x1_1 (constantI S1 32 99999#32))))) (constantI S_ 1 1#1) reducesTo_S1600000x1_S1600000_d1 h_S_

/-- The kernel program's take of a 32-wide table (the composed term of @_take's 23 operations). -/
def take32 (x : FVec F S100000x32 .f32) (s : IVec S1600000 32) : FVec F S1600000x32 .f32 :=
  select (broadcastInDim S1600000x32 ![0] bcast_S1600000_S1600000x32_0 (valid s)) (Host.gather gather_S100000x32_S1600000x1_S1600000x32_1_0_n_n_0_1_132 x (widx s)) (broadcastInDim S1600000x32 ![] bcast_S_S1600000x32 (constant S_ .f32 0x7FC00000#32))

/-- The kernel program's take of a 128-wide table (@_take_0). -/
def take128 (x : FVec F S100000x128 .f32) (s : IVec S1600000 32) : FVec F S1600000x128 .f32 :=
  select (broadcastInDim S1600000x128 ![0] bcast_S1600000_S1600000x128_0 (valid s)) (Host.gather gather_S100000x128_S1600000x1_S1600000x128_1_0_n_n_0_1_1128 x (widx s)) (broadcastInDim S1600000x128 ![] bcast_S_S1600000x128 (constant S_ .f32 0x7FC00000#32))

/-- Every source index is a node: 0 ≤ s e < 100000, read signed. -/
def InRange (s : IVec S1600000 32) : Prop := ∀ e : S1600000.Idx, (0 : Int) ≤ (s e).toInt ∧ (s e).toInt < 100000

end Cert.KTake

end
-- ==== Proof.Take.lean ====
/-
  The kernel reads a node table at the edges' sources with a FILLING take: the wrapped index is tested against
  [0, 99999] and a row whose index fails the test is filled with a NaN pattern. Where every source index lies in
  [0, 100000) the test passes on every edge, so the take is the plain gather the reference makes (Spec.rows32 / rows128).
  The precondition states exactly that range of the edge list's row 0.
-/
import Idealize.ShloMosaic.PureOps.Ideal
import Idealize.ShloMosaic.Lib.ValueIdx
import Idealize.ShloMosaic.Lib.ReduceAll
import Idealize.ShloMosaic.Lib.StableHlo.Predicate
import proofs.«408218_j49898930045492_2_alg».proof.Proof.Gen.KernelIdeal
import proofs.«408218_j49898930045492_2_alg».proof.Proof.Gen.Pre_finite_inputs
import proofs.«408218_j49898930045492_2_alg».proof.Proof.Spec
import proofs.«408218_j49898930045492_2_alg».proof.Proof.TakeDefs

noncomputable section

namespace Cert.KTake

open Idealize.ShloMosaic
open Cert.KernelIdeal Cert.KernelIdeal.Gen

variable {F : FTy → Type} [FloatOps F]

/-! ### Words -/

/-- A left fold by `and` from 1 over one-bit words that are all 1 is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    have h1 : IntOp.andi (1#1 : BitVec 1) 1#1 = 1#1 := by decide
    rw [List.foldl_cons, h a List.mem_cons_self, h1]
    exact foldl_andi_of_all_one f l fun n hn => h n (List.mem_cons_of_mem _ hn)

/-- A word that is not negative, read signed, is left as it is by the wrap "add 100000 if negative". -/
theorem wrapWord_of_nonneg (v : BitVec 32) (h0 : (0 : Int) ≤ v.toInt) :
    Scalar.select (IntOp.cmpi .slt v 0#32) (IntOp.addi v 100000#32) v = v := by
  have hz : (0#32 : BitVec 32).toInt = 0 := by decide
  have hc : IntOp.cmpi .slt v 0#32 = 0#1 := by
    apply ValueIdx.eq_zero_of_ne_one
    rw [IntOp.cmpi_slt, hz]
    omega
  rw [hc, ValueIdx.select_zero]

/-! ### The wrapped index and the test -/

/-- The kernel's wrapped index is the reference's, term for term. -/
theorem widx_eq_wrap (s : IVec S1600000 32) : widx s = Cert.Spec.wrap s := rfl

/-- Every element of the wrapped index column is one of the source indices, wrapped. -/
theorem widx_apply (s : IVec S1600000 32) (i : S1600000x1.Idx) :
    ∃ e : S1600000.Idx, widx s i = Scalar.select (IntOp.cmpi .slt (s e) 0#32) (IntOp.addi (s e) 100000#32) (s e) :=
  ⟨_, rfl⟩

/-- Where the sources are in range the wrapped index is in [0, 99999] at every position. -/
theorem widx_range (s : IVec S1600000 32) (h : InRange s) (i : S1600000x1.Idx) :
    (0 : Int) ≤ (widx s i).toInt ∧ (widx s i).toInt ≤ 99999 := by
  obtain ⟨e, he⟩ := widx_apply s i
  rw [he, wrapWord_of_nonneg _ (h e).1]
  have := h e
  omega

/-- Where the sources are in range the test passes on every edge. -/
theorem valid_eq_one (s : IVec S1600000 32) (h : InRange s) (e : S1600000.Idx) : valid s e = 1#1 := by
  unfold valid
  rw [Host.reduce_eq_foldl]
  refine foldl_andi_of_all_one _ _ fun i _ => ?_
  show IntOp.andi (IntOp.cmpi .sge (widx s i) 0#32) (IntOp.cmpi .sle (widx s i) 99999#32) = 1#1
  have hz : (0#32 : BitVec 32).toInt = 0 := by decide
  have hm : (99999#32 : BitVec 32).toInt = 99999 := by decide
  obtain ⟨h0, h1⟩ := widx_range s h i
  rw [IntOp.andi_eq_one, IntOp.cmpi_sge, IntOp.cmpi_sle, hz, hm]
  exact ⟨h0, h1⟩

/-! ### The two takes -/

theorem take32_eq (x : FVec F S100000x32 .f32) (s : IVec S1600000 32) (h : InRange s) :
    take32 x s = Cert.Spec.rows32 x s := by
  funext j
  unfold take32
  rw [ValueIdx.select_apply]
  show Scalar.select (valid s _) _ _ = _
  rw [valid_eq_one s h, ValueIdx.select_one]
  rfl

theorem take128_eq (x : FVec F S100000x128 .f32) (s : IVec S1600000 32) (h : InRange s) :
    take128 x s = Cert.Spec.rows128 x s := by
  funext j
  unfold take128
  rw [ValueIdx.select_apply]
  show Scalar.select (valid s _) _ _ = _
  rw [valid_eq_one s h, ValueIdx.select_one]
  rfl

/-! ### The range of the sources, out of the precondition -/

/-- The rank-zero shape has one index. -/
instance subsingleton_scalar_idx : Subsingleton Cert.Pre_finite_inputs.S_.Idx := ⟨fun a b => funext fun d => d.elim0⟩

/-- The last part of the precondition's chain ends in "and" with the test on row 0 of the edge list. -/
theorem inRange_of_part5 (a1 : IVec S2x1600000 32) (v83 : IVec Cert.Pre_finite_inputs.S_ 1) (v84 : FVec F Cert.Pre_finite_inputs.S1 .f32)
    (c32 : FVec F Cert.Pre_finite_inputs.S_ .f32)
    (h : Cert.Pre_finite_inputs.fn_part5 (F := F) a1 v83 v84 c32 ValueIdx.ix0 = 1#1) : InRange (Cert.Spec.src a1) := by
  intro e
  have h2 := (IntOp.andi_eq_one.1 h).2
  have h3 := Host.reduce_andi_all _ _ _ _ _ h2 e
  obtain ⟨h4, h5⟩ := IntOp.andi_eq_one.1 h3
  have hz : (0#32 : BitVec 32).toInt = 0 := by decide
  have hm : (100000#32 : BitVec 32).toInt = 100000 := by decide
  have h6 : (0#32 : BitVec 32).toInt ≤ (Cert.Spec.src a1 e).toInt := IntOp.cmpi_sge.1 h4
  have h7 : (Cert.Spec.src a1 e).toInt < (100000#32 : BitVec 32).toInt := IntOp.cmpi_slt.1 h5
  rw [hz] at h6
  rw [hm] at h7
  exact ⟨h6, h7⟩

/-- The precondition (finite float inputs, and row 0 of the edge list in [0, 100000)) gives the range of the sources. -/
theorem inRange_of_pre (a0 : FVec F S100000x32 .f32) (a1 : IVec S2x1600000 32) (a2 : FVec F S1600000x3 .f32) (a3 : IVec S100000 32) (a4 : FVec F S3x32 .f32) (a5 : FVec F S32 .f32) (a6 : FVec F S32x128 .f32) (a7 : FVec F S128 .f32) (a8 : FVec F S128x128 .f32) (a9 : FVec F S128 .f32) (a10 : FVec F S3x128 .f32) (a11 : FVec F S128 .f32) (a12 : FVec F S128x128 .f32) (a13 : FVec F S128 .f32) (a14 : FVec F S128x128 .f32) (a15 : FVec F S128 .f32) (a16 : FVec F S128x128 .f32) (a17 : FVec F S128 .f32) (a18 : FVec F S128x1 .f32) (a19 : FVec F S1 .f32)
    (h : Cert.Pre_finite_inputs.fn (F := F) a0 a1 a2 a3 a4 a5 a6 a7 a8 a9 a10 a11 a12 a13 a14 a15 a16 a17 a18 a19 = fun _ => 1#1) :
    InRange (Cert.Spec.src a1) := by
  have h0 := congrFun h ValueIdx.ix0
  exact inRange_of_part5 a1 _ _ _ h0

end Cert.KTake

end
-- ==== Proof.Rows.lean ====
/-
  A bias vector laid out as a one-row matrix: the kernel's program reshapes [n] to [1, n], the reference broadcasts
  [n] into [1, n] along axis 1. Both put element j of the vector at (0, j).
-/
import Idealize.ShloMosaic.PureOps.Ideal
import Idealize.ShloMosaic.Lib.Pipeline.Value
import proofs.«408218_j49898930045492_2_alg».proof.Proof.Gen.KernelIdeal
import proofs.«408218_j49898930045492_2_alg».proof.Proof.Spec

noncomputable section

namespace Cert.KRows

open Idealize.ShloMosaic
open Cert.KernelIdeal Cert.KernelIdeal.Gen

variable {F : FTy → Type} [FloatOps F]

theorem row32 (b : FVec F S32 .f32) : shapeCast S1x32 b shapeCasts_S32_S1x32 = Cert.Spec.row32 b := by
  funext j
  unfold Cert.Spec.row32
  refine (shapeCast_addUnit_apply (n := 1) ![32] b shapeCasts_S32_S1x32 j).trans ?_
  refine (broadcastInDim_apply _ _ b j (fun a => j a.succ) (fun a => ?_)).symm
  match a with
  | ⟨0, _⟩ => show (j 1).val = if (32 : Nat) = 1 then 0 else (j 1).val; rw [if_neg (by decide)]

theorem row128 (b : FVec F S128 .f32) : shapeCast S1x128 b shapeCasts_S128_S1x128 = Cert.Spec.row128 b := by
  funext j
  unfold Cert.Spec.row128
  refine (shapeCast_addUnit_apply (n := 1) ![128] b shapeCasts_S128_S1x128 j).trans ?_
  refine (broadcastInDim_apply _ _ b j (fun a => j a.succ) (fun a => ?_)).symm
  match a with
  | ⟨0, _⟩ => show (j 1).val = if (128 : Nat) = 1 then 0 else (j 1).val; rw [if_neg (by decide)]

theorem row1 (b : FVec F S1 .f32) : shapeCast S1x1 b shapeCasts_S1_S1x1 = Cert.Spec.row1 b := by
  funext j
  unfold Cert.Spec.row1
  refine (shapeCast_addUnit_apply (n := 1) ![1] b shapeCasts_S1_S1x1 j).trans ?_
  refine (broadcastInDim_apply _ _ b j (fun a => j a.succ) (fun a => ?_)).symm
  match a with
  | ⟨0, _⟩ =>
    show (j 1).val = if (1 : Nat) = 1 then 0 else (j 1).val
    rw [if_pos rfl]
    have := (j 1).isLt
    exact Nat.lt_one_iff.mp this

end Cert.KRows

end
-- ==== Proof.Chain.lean ====
/-
  The kernel program's result array as a function of its argument arrays. The program's memory is followed from the
  launch through its thirteen segments (host stretches and the five kernel regions): a host stretch writes each of
  its operations' value of the operands' contents and leaves every other buffer alone; a region leaves in its output
  window's array the stage function of the arrays it finds (the five region theorems, taken here as hypotheses) and
  every other buffer alone. Composed, the result is the network of Spec.lean on the launch contents of the arguments;
  the only place the sources' range is used is the filling take, which is then a plain gather.
-/
import Idealize.ShloMosaic.PureOps.Ideal
import Idealize.ShloMosaic.Lib.StableHlo.Run
import proofs.«408218_j49898930045492_2_alg».proof.Proof.Gen.KernelIdeal.Frame
import proofs.«408218_j49898930045492_2_alg».proof.Proof.Spec
import proofs.«408218_j49898930045492_2_alg».proof.Proof.TakeDefs
import proofs.«408218_j49898930045492_2_alg».proof.Proof.Rows

set_option maxRecDepth 16384

noncomputable section

namespace Cert.KChain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Steps back through the fold of boundaries -/

/-- A stretch of host operations at a buffer one of them writes: that operation's value of its operands' contents
    before the stretch (and, at a buffer none writes, what was there). -/
macro "across" ops:ident : tactic =>
  `(tactic| (show StableHlo.after $ops _ _ = _; dsimp only [$ops:ident]; after_results_simp))

/-- A stretch of host operations leaves a buffer none of them writes as it found it. -/
macro "skip" ops:ident : tactic =>
  `(tactic| (refine (StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ?_))

macro "p1" : tactic => `(tactic| skip hostOps0)
macro "p2" : tactic => `(tactic| (skip hostOps0_1; p1))
macro "p3" : tactic => `(tactic| (skip hostOps0_2; p2))
macro "p4" : tactic => `(tactic| (rw [W4_of_ne _ _ _ _ (by decide)]; p3))
macro "p5" : tactic => `(tactic| (skip hostOps1; p4))
macro "p6" : tactic => `(tactic| (rw [W6_of_ne _ _ _ _ (by decide)]; p5))
macro "p7" : tactic => `(tactic| (skip hostOps2; p6))
macro "p8" : tactic => `(tactic| (skip hostOps2_1; p7))
macro "p9" : tactic => `(tactic| (rw [W9_of_ne _ _ _ _ (by decide)]; p8))
macro "p10" : tactic => `(tactic| (skip hostOps3; p9))
macro "p11" : tactic => `(tactic| (rw [W11_of_ne _ _ _ _ (by decide)]; p10))
macro "p12" : tactic => `(tactic| (skip hostOps4; p11))

/-! ## The argument arrays, where a segment reads them: as launched -/

theorem W1_arg0 (c : Dev nD) : W1 m ρ c (Proc.devRef .tc main_arg0) = (m ((c : Thread nD τ).loc main_arg0)) := by p1; rfl
theorem W2_arg5 (c : Dev nD) : W2 m ρ c (Proc.devRef .tc main_arg5) = (m ((c : Thread nD τ).loc main_arg5)) := by p2; rfl
theorem W3_arg2 (c : Dev nD) : W3 m ρ c (Proc.devRef .tc main_arg2) = (m ((c : Thread nD τ).loc main_arg2)) := by p3; rfl
theorem W3_arg4 (c : Dev nD) : W3 m ρ c (Proc.devRef .tc main_arg4) = (m ((c : Thread nD τ).loc main_arg4)) := by p3; rfl
theorem W4_arg7 (c : Dev nD) : W4 m ρ c (Proc.devRef .tc main_arg7) = (m ((c : Thread nD τ).loc main_arg7)) := by p4; rfl
theorem W4_arg9 (c : Dev nD) : W4 m ρ c (Proc.devRef .tc main_arg9) = (m ((c : Thread nD τ).loc main_arg9)) := by p4; rfl
theorem W5_arg0 (c : Dev nD) : W5 m ρ c (Proc.devRef .tc main_arg0) = (m ((c : Thread nD τ).loc main_arg0)) := by p5; rfl
theorem W5_arg6 (c : Dev nD) : W5 m ρ c (Proc.devRef .tc main_arg6) = (m ((c : Thread nD τ).loc main_arg6)) := by p5; rfl
theorem W5_arg8 (c : Dev nD) : W5 m ρ c (Proc.devRef .tc main_arg8) = (m ((c : Thread nD τ).loc main_arg8)) := by p5; rfl
theorem W7_arg11 (c : Dev nD) : W7 m ρ c (Proc.devRef .tc main_arg11) = (m ((c : Thread nD τ).loc main_arg11)) := by p7; rfl
/-- The edge attributes are an input window's array of region 0: the region hands it back as it found it. -/
theorem W4_arg2 (c : Dev nD) : W4 m ρ c (Proc.devRef .tc main_arg2) = (m ((c : Thread nD τ).loc main_arg2)) :=
  ((W4_arr m ρ c 1).trans (((dat0 (V3 m ρ) c).arrAt_in 1 rfl _).trans (A_eq0 (V3 m ρ) c 1))).trans (W3_arg2 m ρ c)
theorem W8_arg2 (c : Dev nD) : W8 m ρ c (Proc.devRef .tc main_arg2) = (m ((c : Thread nD τ).loc main_arg2)) := by
  skip hostOps2_1; skip hostOps2; rw [W6_of_ne _ _ _ _ (by decide)]; skip hostOps1; exact W4_arg2 m ρ c
theorem W8_arg10 (c : Dev nD) : W8 m ρ c (Proc.devRef .tc main_arg10) = (m ((c : Thread nD τ).loc main_arg10)) := by p8; rfl
theorem W9_arg13 (c : Dev nD) : W9 m ρ c (Proc.devRef .tc main_arg13) = (m ((c : Thread nD τ).loc main_arg13)) := by p9; rfl
theorem W9_arg15 (c : Dev nD) : W9 m ρ c (Proc.devRef .tc main_arg15) = (m ((c : Thread nD τ).loc main_arg15)) := by p9; rfl
theorem W10_arg12 (c : Dev nD) : W10 m ρ c (Proc.devRef .tc main_arg12) = (m ((c : Thread nD τ).loc main_arg12)) := by p10; rfl
theorem W10_arg14 (c : Dev nD) : W10 m ρ c (Proc.devRef .tc main_arg14) = (m ((c : Thread nD τ).loc main_arg14)) := by p10; rfl
theorem W11_arg3 (c : Dev nD) : W11 m ρ c (Proc.devRef .tc main_arg3) = (m ((c : Thread nD τ).loc main_arg3)) := by p11; rfl
theorem W11_arg17 (c : Dev nD) : W11 m ρ c (Proc.devRef .tc main_arg17) = (m ((c : Thread nD τ).loc main_arg17)) := by p11; rfl
theorem W11_arg19 (c : Dev nD) : W11 m ρ c (Proc.devRef .tc main_arg19) = (m ((c : Thread nD τ).loc main_arg19)) := by p11; rfl
theorem W12_arg16 (c : Dev nD) : W12 m ρ c (Proc.devRef .tc main_arg16) = (m ((c : Thread nD τ).loc main_arg16)) := by p12; rfl
theorem W12_arg18 (c : Dev nD) : W12 m ρ c (Proc.devRef .tc main_arg18) = (m ((c : Thread nD τ).loc main_arg18)) := by p12; rfl

/-! ## The edges' sources and targets -/

theorem W1_v1 (c : Dev nD) : W1 m ρ c (Proc.devRef .tc main_v1) = Cert.Spec.src (m ((c : Thread nD τ).loc main_arg1)) := by
  across hostOps0
  rfl
theorem W1_v3 (c : Dev nD) : W1 m ρ c (Proc.devRef .tc main_v3) = Cert.Spec.dst (m ((c : Thread nD τ).loc main_arg1)) := by
  across hostOps0
  rfl
theorem W4_v3 (c : Dev nD) : W4 m ρ c (Proc.devRef .tc main_v3) = Cert.Spec.dst (m ((c : Thread nD τ).loc main_arg1)) := by
  rw [W4_of_ne _ _ _ _ (by decide)]; skip hostOps0_2; skip hostOps0_1; exact W1_v3 m ρ c
theorem W6_v1 (c : Dev nD) : W6 m ρ c (Proc.devRef .tc main_v1) = Cert.Spec.src (m ((c : Thread nD τ).loc main_arg1)) := by
  rw [W6_of_ne _ _ _ _ (by decide)]; skip hostOps1; rw [W4_of_ne _ _ _ _ (by decide)]; skip hostOps0_2; skip hostOps0_1; exact W1_v1 m ρ c
theorem W9_v3 (c : Dev nD) : W9 m ρ c (Proc.devRef .tc main_v3) = Cert.Spec.dst (m ((c : Thread nD τ).loc main_arg1)) := by
  rw [W9_of_ne _ _ _ _ (by decide)]; skip hostOps2_1; skip hostOps2; rw [W6_of_ne _ _ _ _ (by decide)]; skip hostOps1; exact W4_v3 m ρ c

/-! ## The filling take's stretch of host operations as one term

The take's body is a called function: each of its operations carries its operands and its result between a value's
type and its buffer's type (the same type). Those transports cancel, and what the stretch leaves in the take's result
buffer is the term `take32` / `take128` of TakeDefs.lean applied to the table's and the sources' contents before it. -/

/-- Contents carried to a buffer's own type and back are themselves. -/
theorem ofBuf_toBuf {T : BufTy} (x : StableHlo.TRef sig T) (v : T.Contents (Elt Ideal)) : x.ofBuf (x.toBuf v) = v := by
  obtain ⟨r, h, h2, h3⟩ := x
  subst h
  rfl

theorem toBuf_v4 (p1 p2 p3) (v : (⟨S1600000x32, .f32⟩ : BufTy).Contents (Elt Ideal)) :
    (StableHlo.TRef.of (T := ⟨S1600000x32, .f32⟩) main_v4 p1 p2 p3).toBuf v = v := rfl
theorem toBuf_v13 (p1 p2 p3) (v : (⟨S1600000x128, .f32⟩ : BufTy).Contents (Elt Ideal)) :
    (StableHlo.TRef.of (T := ⟨S1600000x128, .f32⟩) main_v13 p1 p2 p3).toBuf v = v := rfl
theorem ofBuf_v1 (p1 p2 p3) (v : main_v1.ty.Contents (Elt Ideal)) :
    (StableHlo.TRef.of (T := ⟨S1600000, .i32⟩) main_v1 p1 p2 p3).ofBuf v = v := rfl
theorem ofBuf_arg0 (p1 p2 p3) (v : main_arg0.ty.Contents (Elt Ideal)) :
    (StableHlo.TRef.of (T := ⟨S100000x32, .f32⟩) main_arg0 p1 p2 p3).ofBuf v = v := rfl
theorem ofBuf_v12 (p1 p2 p3) (v : main_v12.ty.Contents (Elt Ideal)) :
    (StableHlo.TRef.of (T := ⟨S100000x128, .f32⟩) main_v12 p1 p2 p3).ofBuf v = v := rfl

set_option maxHeartbeats 8000000 in
/-- The first take's stretch, from any contents before it. -/
theorem take_stretch32 (X : Valuation τ sig (Elt Ideal)) :
    StableHlo.after hostOps0_1 X (Proc.devRef .tc main_v4) = Cert.KTake.take32 (F := Ideal) (X (Proc.devRef .tc main_arg0)) (X (Proc.devRef .tc main_v1)) := by
  dsimp only [hostOps0_1]
  after_results_simp
  simp only [ofBuf_toBuf]
  rw [toBuf_v4]
  simp only [ofBuf_v1, ofBuf_arg0]
  unfold Cert.KTake.take32 Cert.KTake.valid Cert.KTake.widx
  rfl

set_option maxHeartbeats 8000000 in
/-- The second take's stretch, from any contents before it. -/
theorem take_stretch128 (X : Valuation τ sig (Elt Ideal)) :
    StableHlo.after hostOps2 X (Proc.devRef .tc main_v13) = Cert.KTake.take128 (F := Ideal) (X (Proc.devRef .tc main_v12)) (X (Proc.devRef .tc main_v1)) := by
  dsimp only [hostOps2]
  after_results_simp
  simp only [ofBuf_toBuf]
  rw [toBuf_v13]
  simp only [ofBuf_v1, ofBuf_v12]
  unfold Cert.KTake.take128 Cert.KTake.valid Cert.KTake.widx
  rfl

/-! ## The stages, in the program's order

`hT32`, `hT128`: the filling take at the edges' sources is the plain gather (true where every source index is a node). `hR0` … `hR4`: each region leaves its stage function of the arrays it finds. -/

section Stages

/-- Layer 1's node features of the launch contents (the reference-shaped stage of Spec.lean). -/
abbrev feat1 (c : Dev nD) : FVec Ideal S100000x128 .f32 :=
  Cert.Spec.h1 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Layer 2's node features of the launch contents. -/
abbrev feat2 (c : Dev nD) : FVec Ideal S100000x128 .f32 :=
  Cert.Spec.h2 (F := Ideal) (feat1 m c) (m ((c : Thread nD τ).loc main_arg1)) (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

variable (hT32 : ∀ (c : Dev nD) (x : FVec Ideal S100000x32 .f32), Cert.KTake.take32 x (Cert.Spec.src (m ((c : Thread nD τ).loc main_arg1))) = Cert.Spec.rows32 (F := Ideal) x (Cert.Spec.src (m ((c : Thread nD τ).loc main_arg1))))
variable (hT128 : ∀ (c : Dev nD) (x : FVec Ideal S100000x128 .f32), Cert.KTake.take128 x (Cert.Spec.src (m ((c : Thread nD τ).loc main_arg1))) = Cert.Spec.rows128 (F := Ideal) x (Cert.Spec.src (m ((c : Thread nD τ).loc main_arg1))))
variable (hR0 : ∀ (V : (c : Dev nD) → (b : Ref sig .tc) → Buf (Elt Ideal) ((c : Thread nD τ).loc b)) (c : Dev nD), (dat0 (F := Ideal) V c).arrAt 4 cfg0.N = Cert.Spec.msg32 (F := Ideal) (V c main_v4) (V c main_arg2) (V c main_arg4) (V c main_v5))
variable (hR1 : ∀ (V : (c : Dev nD) → (b : Ref sig .tc) → Buf (Elt Ideal) ((c : Thread nD τ).loc b)) (c : Dev nD), (dat1 (F := Ideal) V c).arrAt 6 cfg1.N = Cert.Spec.node32 (F := Ideal) (V c main_arg0) (V c main_v9) (V c main_arg6) (V c main_v10) (V c main_arg8) (V c main_v11))
variable (hR2 : ∀ (V : (c : Dev nD) → (b : Ref sig .tc) → Buf (Elt Ideal) ((c : Thread nD τ).loc b)) (c : Dev nD), (dat2 (F := Ideal) V c).arrAt 4 cfg2.N = Cert.Spec.msg128 (F := Ideal) (V c main_v13) (V c main_arg2) (V c main_arg10) (V c main_v14))
variable (hR3 : ∀ (V : (c : Dev nD) → (b : Ref sig .tc) → Buf (Elt Ideal) ((c : Thread nD τ).loc b)) (c : Dev nD), (dat3 (F := Ideal) V c).arrAt 6 cfg3.N = Cert.Spec.node128 (F := Ideal) (V c main_v12) (V c main_v18) (V c main_arg12) (V c main_v19) (V c main_arg14) (V c main_v20))
variable (hR4 : ∀ (V : (c : Dev nD) → (b : Ref sig .tc) → Buf (Elt Ideal) ((c : Thread nD τ).loc b)) (c : Dev nD), (dat4 (F := Ideal) V c).arrAt 5 cfg4.N = Cert.Spec.readout (F := Ideal) (V c main_v24) (V c main_arg16) (V c main_v25) (V c main_arg18) (V c main_v26))

include hT32 in
set_option maxHeartbeats 8000000 in
/-- The rows of x at the sources, as region 0 finds them. -/
theorem W3_v4 (c : Dev nD) : W3 m ρ c (Proc.devRef .tc main_v4) = Cert.Spec.rows32 (F := Ideal) (m ((c : Thread nD τ).loc main_arg0)) (Cert.Spec.src (m ((c : Thread nD τ).loc main_arg1))) := by
  have e : StableHlo.after hostOps0_2 (StableHlo.after hostOps0_1 (W1 m ρ c)) (Proc.devRef .tc main_v4)
      = StableHlo.after hostOps0_1 (W1 m ρ c) (Proc.devRef .tc main_v4) := by
    generalize StableHlo.after hostOps0_1 (W1 m ρ c) = Y
    dsimp only [hostOps0_2]
    after_results_simp
  refine e.trans ?_
  rw [take_stretch32, W1_arg0 m ρ c, W1_v1 m ρ c]
  exact hT32 c _

/-- The first message bias as a row. -/
theorem W3_v5 (c : Dev nD) : W3 m ρ c (Proc.devRef .tc main_v5) = Cert.Spec.row32 (F := Ideal) (m ((c : Thread nD τ).loc main_arg5)) := by
  across hostOps0_2
  refine Eq.trans ?_ (Cert.KRows.row32 (F := Ideal) _)
  rfl

include hT32 hR0 in
/-- Region 0 leaves the 32-wide messages. -/
theorem W4_v6 (c : Dev nD) : W4 m ρ c (Proc.devRef .tc main_v6) =
    Cert.Spec.msg32 (F := Ideal) (Cert.Spec.rows32 (F := Ideal) (m ((c : Thread nD τ).loc main_arg0)) (Cert.Spec.src (m ((c : Thread nD τ).loc main_arg1)))) (m ((c : Thread nD τ).loc main_arg2)) (m ((c : Thread nD τ).loc main_arg4)) (Cert.Spec.row32 (F := Ideal) (m ((c : Thread nD τ).loc main_arg5))) := by
  refine ((W4_arr m ρ c 4).trans (hR0 (V3 m ρ) c)).trans ?_
  show Cert.Spec.msg32 (F := Ideal) (W3 m ρ c (Proc.devRef .tc main_v4)) (W3 m ρ c (Proc.devRef .tc main_arg2)) (W3 m ρ c (Proc.devRef .tc main_arg4)) (W3 m ρ c (Proc.devRef .tc main_v5)) = _
  rw [W3_v4 m ρ hT32 c, W3_arg2 m ρ c, W3_arg4 m ρ c, W3_v5 m ρ c]

include hT32 hR0 in
/-- The first aggregate. -/
theorem W5_v9 (c : Dev nD) : W5 m ρ c (Proc.devRef .tc main_v9) =
    Cert.Spec.agg32 (F := Ideal) (Cert.Spec.dst (m ((c : Thread nD τ).loc main_arg1))) (Cert.Spec.msg32 (F := Ideal) (Cert.Spec.rows32 (F := Ideal) (m ((c : Thread nD τ).loc main_arg0)) (Cert.Spec.src (m ((c : Thread nD τ).loc main_arg1)))) (m ((c : Thread nD τ).loc main_arg2)) (m ((c : Thread nD τ).loc main_arg4)) (Cert.Spec.row32 (F := Ideal) (m ((c : Thread nD τ).loc main_arg5)))) := by
  across hostOps1
  rw [W4_v3 m ρ c, W4_v6 m ρ hT32 hR0 c]
  rfl

theorem W5_v10 (c : Dev nD) : W5 m ρ c (Proc.devRef .tc main_v10) = Cert.Spec.row128 (F := Ideal) (m ((c : Thread nD τ).loc main_arg7)) := by
  across hostOps1
  rw [W4_arg7 m ρ c]
  refine Eq.trans ?_ (Cert.KRows.row128 (F := Ideal) _)
  rfl

theorem W5_v11 (c : Dev nD) : W5 m ρ c (Proc.devRef .tc main_v11) = Cert.Spec.row128 (F := Ideal) (m ((c : Thread nD τ).loc main_arg9)) := by
  across hostOps1
  rw [W4_arg9 m ρ c]
  refine Eq.trans ?_ (Cert.KRows.row128 (F := Ideal) _)
  rfl

include hT32 hR0 hR1 in
/-- Region 1 leaves layer 1's node features. -/
theorem W6_v12 (c : Dev nD) : W6 m ρ c (Proc.devRef .tc main_v12) = feat1 m c := by
  refine ((W6_arr m ρ c 6).trans (hR1 (V5 m ρ) c)).trans ?_
  show Cert.Spec.node32 (F := Ideal) (W5 m ρ c (Proc.devRef .tc main_arg0)) (W5 m ρ c (Proc.devRef .tc main_v9)) (W5 m ρ c (Proc.devRef .tc main_arg6)) (W5 m ρ c (Proc.devRef .tc main_v10)) (W5 m ρ c (Proc.devRef .tc main_arg8)) (W5 m ρ c (Proc.devRef .tc main_v11)) = _
  rw [W5_arg0 m ρ c, W5_v9 m ρ hT32 hR0 c, W5_arg6 m ρ c, W5_v10 m ρ c, W5_arg8 m ρ c, W5_v11 m ρ c]
  rfl

include hT32 hT128 hR0 hR1 in
set_option maxHeartbeats 8000000 in
/-- The rows of layer 1's features at the sources, as region 2 finds them. -/
theorem W8_v13 (c : Dev nD) : W8 m ρ c (Proc.devRef .tc main_v13) = Cert.Spec.rows128 (F := Ideal) (feat1 m c) (Cert.Spec.src (m ((c : Thread nD τ).loc main_arg1))) := by
  have e : StableHlo.after hostOps2_1 (StableHlo.after hostOps2 (W6 m ρ c)) (Proc.devRef .tc main_v13)
      = StableHlo.after hostOps2 (W6 m ρ c) (Proc.devRef .tc main_v13) := by
    generalize StableHlo.after hostOps2 (W6 m ρ c) = Y
    dsimp only [hostOps2_1]
    after_results_simp
  refine e.trans ?_
  rw [take_stretch128, W6_v12 m ρ hT32 hR0 hR1 c, W6_v1 m ρ c]
  exact hT128 c _

theorem W8_v14 (c : Dev nD) : W8 m ρ c (Proc.devRef .tc main_v14) = Cert.Spec.row128 (F := Ideal) (m ((c : Thread nD τ).loc main_arg11)) := by
  across hostOps2_1
  refine Eq.trans ?_ (Cert.KRows.row128 (F := Ideal) _)
  rfl

include hT32 hT128 hR0 hR1 hR2 in
/-- Region 2 leaves the 128-wide messages. -/
theorem W9_v15 (c : Dev nD) : W9 m ρ c (Proc.devRef .tc main_v15) =
    Cert.Spec.msg128 (F := Ideal) (Cert.Spec.rows128 (F := Ideal) (feat1 m c) (Cert.Spec.src (m ((c : Thread nD τ).loc main_arg1)))) (m ((c : Thread nD τ).loc main_arg2)) (m ((c : Thread nD τ).loc main_arg10)) (Cert.Spec.row128 (F := Ideal) (m ((c : Thread nD τ).loc main_arg11))) := by
  refine ((W9_arr m ρ c 4).trans (hR2 (V8 m ρ) c)).trans ?_
  show Cert.Spec.msg128 (F := Ideal) (W8 m ρ c (Proc.devRef .tc main_v13)) (W8 m ρ c (Proc.devRef .tc main_arg2)) (W8 m ρ c (Proc.devRef .tc main_arg10)) (W8 m ρ c (Proc.devRef .tc main_v14)) = _
  rw [W8_v13 m ρ hT32 hT128 hR0 hR1 c, W8_arg2 m ρ c, W8_arg10 m ρ c, W8_v14 m ρ c]

include hT32 hT128 hR0 hR1 hR2 in
/-- The second aggregate. -/
theorem W10_v18 (c : Dev nD) : W10 m ρ c (Proc.devRef .tc main_v18) =
    Cert.Spec.agg128 (F := Ideal) (Cert.Spec.dst (m ((c : Thread nD τ).loc main_arg1))) (Cert.Spec.msg128 (F := Ideal) (Cert.Spec.rows128 (F := Ideal) (feat1 m c) (Cert.Spec.src (m ((c : Thread nD τ).loc main_arg1)))) (m ((c : Thread nD τ).loc main_arg2)) (m ((c : Thread nD τ).loc main_arg10)) (Cert.Spec.row128 (F := Ideal) (m ((c : Thread nD τ).loc main_arg11)))) := by
  across hostOps3
  rw [W9_v3 m ρ c, W9_v15 m ρ hT32 hT128 hR0 hR1 hR2 c]
  rfl

theorem W10_v19 (c : Dev nD) : W10 m ρ c (Proc.devRef .tc main_v19) = Cert.Spec.row128 (F := Ideal) (m ((c : Thread nD τ).loc main_arg13)) := by
  across hostOps3
  rw [W9_arg13 m ρ c]
  refine Eq.trans ?_ (Cert.KRows.row128 (F := Ideal) _)
  rfl

theorem W10_v20 (c : Dev nD) : W10 m ρ c (Proc.devRef .tc main_v20) = Cert.Spec.row128 (F := Ideal) (m ((c : Thread nD τ).loc main_arg15)) := by
  across hostOps3
  rw [W9_arg15 m ρ c]
  refine Eq.trans ?_ (Cert.KRows.row128 (F := Ideal) _)
  rfl

include hT32 hR0 hR1 in
/-- Layer 1's features, still in place when region 3 starts. -/
theorem W10_v12 (c : Dev nD) : W10 m ρ c (Proc.devRef .tc main_v12) = feat1 m c := by
  across hostOps3
  rw [W9_of_ne _ _ _ _ (by decide)]
  across hostOps2_1
  exact W6_v12 m ρ hT32 hR0 hR1 c

include hT32 hT128 hR0 hR1 hR2 hR3 in
/-- Region 3 leaves layer 2's node features. -/
theorem W11_v21 (c : Dev nD) : W11 m ρ c (Proc.devRef .tc main_v21) = feat2 m c := by
  refine ((W11_arr m ρ c 6).trans (hR3 (V10 m ρ) c)).trans ?_
  show Cert.Spec.node128 (F := Ideal) (W10 m ρ c (Proc.devRef .tc main_v12)) (W10 m ρ c (Proc.devRef .tc main_v18)) (W10 m ρ c (Proc.devRef .tc main_arg12)) (W10 m ρ c (Proc.devRef .tc main_v19)) (W10 m ρ c (Proc.devRef .tc main_arg14)) (W10 m ρ c (Proc.devRef .tc main_v20)) = _
  rw [W10_v12 m ρ hT32 hR0 hR1 c, W10_v18 m ρ hT32 hT128 hR0 hR1 hR2 c, W10_arg12 m ρ c, W10_v19 m ρ c, W10_arg14 m ρ c, W10_v20 m ρ c]
  rfl

include hT32 hT128 hR0 hR1 hR2 hR3 in
/-- The pooled graph vectors. -/
theorem W12_v24 (c : Dev nD) : W12 m ρ c (Proc.devRef .tc main_v24) = Cert.Spec.pool (F := Ideal) (m ((c : Thread nD τ).loc main_arg3)) (feat2 m c) := by
  across hostOps4
  rw [W11_arg3 m ρ c, W11_v21 m ρ hT32 hT128 hR0 hR1 hR2 hR3 c]
  rfl

theorem W12_v25 (c : Dev nD) : W12 m ρ c (Proc.devRef .tc main_v25) = Cert.Spec.row128 (F := Ideal) (m ((c : Thread nD τ).loc main_arg17)) := by
  across hostOps4
  rw [W11_arg17 m ρ c]
  refine Eq.trans ?_ (Cert.KRows.row128 (F := Ideal) _)
  rfl

theorem W12_v26 (c : Dev nD) : W12 m ρ c (Proc.devRef .tc main_v26) = Cert.Spec.row1 (F := Ideal) (m ((c : Thread nD τ).loc main_arg19)) := by
  across hostOps4
  rw [W11_arg19 m ρ c]
  refine Eq.trans ?_ (Cert.KRows.row1 (F := Ideal) _)
  rfl

include hT32 hT128 hR0 hR1 hR2 hR3 hR4 in
/-- THE RESULT: what the last boundary holds at the result array is the network on the launch contents. -/
theorem result (c : Dev nD) : W13 m ρ c (Proc.devRef .tc main_v27) =
    Cert.Spec.readout (F := Ideal) (Cert.Spec.pool (F := Ideal) (m ((c : Thread nD τ).loc main_arg3)) (feat2 m c)) (m ((c : Thread nD τ).loc main_arg16)) (Cert.Spec.row128 (F := Ideal) (m ((c : Thread nD τ).loc main_arg17))) (m ((c : Thread nD τ).loc main_arg18)) (Cert.Spec.row1 (F := Ideal) (m ((c : Thread nD τ).loc main_arg19))) := by
  refine ((W13_arr m ρ c 5).trans (hR4 (V12 m ρ) c)).trans ?_
  show Cert.Spec.readout (F := Ideal) (W12 m ρ c (Proc.devRef .tc main_v24)) (W12 m ρ c (Proc.devRef .tc main_arg16)) (W12 m ρ c (Proc.devRef .tc main_v25)) (W12 m ρ c (Proc.devRef .tc main_arg18)) (W12 m ρ c (Proc.devRef .tc main_v26)) = _
  rw [W12_v24 m ρ hT32 hT128 hR0 hR1 hR2 hR3 c, W12_arg16 m ρ c, W12_v25 m ρ c, W12_arg18 m ρ c, W12_v26 m ρ c]

end Stages

end Cert.KChain

end
-- ==== Proof.Region0.lean ====
/-
  REGION 0 (the 32-wide message kernel, 800 row blocks of 2000 edges): the array the pipeline leaves in the output window is the whole-array message function of the arrays the region finds.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«408218_j49898930045492_2_alg».proof.Proof.Gen.KernelIdeal.Frame
import proofs.«408218_j49898930045492_2_alg».proof.Proof.Gen.ReferenceIdeal.Read
import proofs.«408218_j49898930045492_2_alg».proof.Proof.Spec

set_option maxRecDepth 16384

noncomputable section

namespace Cert.KVal

open Idealize.ShloMosaic Idealize.ShloMosaic.TcCoe Idealize.SL.Sem
open Idealize.ShloMosaic.Pipeline (Dat Cfg Window)
open Cert.KernelIdeal Cert.KernelIdeal.Gen
open Idealize.ShloMosaic.ValueIdx

namespace Msg32

/-! ## One edge's message, feature by feature

  At edge `e` and feature `j` the message is `max (x_src[e,j] + (∑ k<3, ea[e,k]·We[k,j]) + be[0,j]) 0`. The block body
  groups the sum as `x + (lin + b)`, the whole-array function as `(x + lin) + b`; addition of extended reals is
  associative, so the two agree with no finiteness asked. -/

/-- Both offsets of a whole-block access are zero. -/
theorem zeroOff32 : (![0, 0] : Fin 2 → Nat) = fun _ => 0 := funext fun a => by fin_cases a <;> rfl

/-! ### The block product's operand indices, axis by axis -/

theorem blkLhs32_0 (i : S2000x32.Idx) (q : dot_S2000x3_S3x32_S2000x32_1_0_0_1_n_n.contr.Idx) :
    (dot_S2000x3_S3x32_S2000x32_1_0_0_1_n_n.lhsIdx i q 0).val = (i 0).val := by
  unfold DotDims.lhsIdx
  rw [dif_neg (show ¬(0 : Fin S2000x3.rank) ∈ dot_S2000x3_S3x32_S2000x32_1_0_0_1_n_n.lhsBatch by decide), dif_pos (show (0 : Fin S2000x3.rank) ∈ dot_S2000x3_S3x32_S2000x32_1_0_0_1_n_n.lhsNonContracting by decide)]
  rfl
theorem blkLhs32_1 (i : S2000x32.Idx) (q : dot_S2000x3_S3x32_S2000x32_1_0_0_1_n_n.contr.Idx) :
    (dot_S2000x3_S3x32_S2000x32_1_0_0_1_n_n.lhsIdx i q 1).val = (q ⟨0, by decide⟩).val :=
  dot_S2000x3_S3x32_S2000x32_1_0_0_1_n_n.lhsIdx_val_of_single rfl i q
theorem blkRhs32_0 (i : S2000x32.Idx) (q : dot_S2000x3_S3x32_S2000x32_1_0_0_1_n_n.contr.Idx) :
    (dot_S2000x3_S3x32_S2000x32_1_0_0_1_n_n.rhsIdx i q 0).val = (q ⟨0, by decide⟩).val :=
  dot_S2000x3_S3x32_S2000x32_1_0_0_1_n_n.rhsIdx_val_of_single rfl i q
theorem blkRhs32_1 (i : S2000x32.Idx) (q : dot_S2000x3_S3x32_S2000x32_1_0_0_1_n_n.contr.Idx) :
    (dot_S2000x3_S3x32_S2000x32_1_0_0_1_n_n.rhsIdx i q 1).val = (i 1).val := by
  unfold DotDims.rhsIdx
  rw [dif_neg (show ¬(1 : Fin S3x32.rank) ∈ dot_S2000x3_S3x32_S2000x32_1_0_0_1_n_n.rhsBatch by decide), dif_pos (show (1 : Fin S3x32.rank) ∈ dot_S2000x3_S3x32_S2000x32_1_0_0_1_n_n.rhsNonContracting by decide)]
  rfl

/-- The block product `ea_blk · We` into a zero accumulator, at row `p` and feature `q`: the sum over the three edge attributes. -/
theorem blkProd32 (a : FVec Ideal S2000x3 .f32) (w : FVec Ideal S3x32 .f32) (p : Fin 2000) (q : Fin 32) :
    matmul dot_S2000x3_S3x32_S2000x32_1_0_0_1_n_n (some .fp32) a w (constant (F := Ideal) S2000x32 .f32 0x00000000#32) (ix2 p q)
      = ∑ k : Fin 3, a (ix2 p k) * w (ix2 k q) := by
  simp only [matmul]
  rw [Ideal.matmul_constant_zero_apply, ← Equiv.sum_comp (ValueIdx.contrEquiv1 dot_S2000x3_S3x32_S2000x32_1_0_0_1_n_n 3 rfl rfl).symm]
  refine Finset.sum_congr rfl fun k _ => ?_
  have hk := ValueIdx.contrEquiv1_symm_val dot_S2000x3_S3x32_S2000x32_1_0_0_1_n_n 3 rfl rfl k
  have el : dot_S2000x3_S3x32_S2000x32_1_0_0_1_n_n.lhsIdx (ix2 p q) ((ValueIdx.contrEquiv1 dot_S2000x3_S3x32_S2000x32_1_0_0_1_n_n 3 rfl rfl).symm k) = ix2 p k := funext fun ax => Fin.ext (by
    match ax with
    | ⟨0, _⟩ => exact blkLhs32_0 _ _
    | ⟨1, _⟩ => exact (blkLhs32_1 _ _).trans hk)
  have er : dot_S2000x3_S3x32_S2000x32_1_0_0_1_n_n.rhsIdx (ix2 p q) ((ValueIdx.contrEquiv1 dot_S2000x3_S3x32_S2000x32_1_0_0_1_n_n 3 rfl rfl).symm k) = ix2 k q := funext fun ax => Fin.ext (by
    match ax with
    | ⟨0, _⟩ => exact (blkRhs32_0 _ _).trans hk
    | ⟨1, _⟩ => exact blkRhs32_1 _ _)
  rw [el, er]

/-- What the body stores at row `p`, feature `q` of its block, from the four blocks it loads. -/
theorem blkMsg32 (a : Vec Ideal S2000x3 .f32) (w : Vec Ideal S3x32 .f32) (b : Vec Ideal S1x32 .f32) (x : Vec Ideal S2000x32 .f32)
    (p : Fin 2000) (q : Fin 32) :
    k0_pay1 (F := Ideal) a w b x (ix2 p q)
      = max (x (ix2 p q) + ((∑ k : Fin 3, a (ix2 p k) * w (ix2 k q)) + b (ix2 (0 : Fin 1) q))) 0 := by
  unfold k0_pay1
  rw [maximumf_apply, addf_apply, addf_apply, shapeCast_self, shapeCast_self, blkProd32, broadcastTo_1b_ab_apply, broadcast_apply]
  show max _ (Ideal.ofBits .f32 0x00000000#32) = _
  rw [Ideal.ofBits_zero_f32]

/-! ### The whole-array function at an edge and a feature -/

/-- The whole-array messages at edge `e`, feature `j`. -/
theorem arrMsg32 (xs : FVec Ideal Cert.ReferenceIdeal.S1600000x32 .f32) (ea : FVec Ideal Cert.ReferenceIdeal.S1600000x3 .f32)
    (we : FVec Ideal Cert.ReferenceIdeal.S3x32 .f32) (be : FVec Ideal Cert.ReferenceIdeal.S1x32 .f32) (e : Fin 1600000) (j : Fin 32) :
    Cert.Spec.msg32 (F := Ideal) xs ea we be (ix2 e j)
      = max ((xs (ix2 e j) + ∑ k : Fin 3, ea (ix2 e k) * we (ix2 k j)) + be (ix2 (0 : Fin 1) j)) 0 := by
  unfold Cert.Spec.msg32
  rw [maximumf_apply, addf_apply, addf_apply]
  have hdot : Host.dotGeneral (F := Ideal) Cert.ReferenceIdeal.dot_S1600000x3_S3x32_S1600000x32_1_0_0_1_n_n none ea we (ix2 e j)
      = ∑ k : Fin 3, ea (ix2 e k) * we (ix2 k j) := by
    refine (Cert.ReferenceIdeal.Read.val_main_v11_apply ea we (ix2 e j)).trans ?_
    refine Finset.sum_congr rfl fun k _ => ?_
    have el : Cert.ReferenceIdeal.Read.lidx_main_v11 (ix2 e j) k = ix2 e k := funext fun ax => Fin.ext (by
      match ax with
      | ⟨0, _⟩ => rfl
      | ⟨1, _⟩ => rfl)
    have er : Cert.ReferenceIdeal.Read.ridx_main_v11 (ix2 e j) k = ix2 k j := funext fun ax => Fin.ext (by
      match ax with
      | ⟨0, _⟩ => rfl
      | ⟨1, _⟩ => rfl)
    rw [el, er]
  have hrow : broadcastInDim Cert.ReferenceIdeal.S1600000x32 ![0, 1] Cert.ReferenceIdeal.Gen.bcast_S1x32_S1600000x32_0_1 be (ix2 e j) = be (ix2 (0 : Fin 1) j) :=
    broadcastInDim_apply _ Cert.ReferenceIdeal.Gen.bcast_S1x32_S1600000x32_0_1 be (ix2 e j) (ix2 (0 : Fin 1) j) (fun ax => match ax with
      | ⟨0, _⟩ => by show 0 = if (1 : Nat) = 1 then 0 else e.val; rw [if_pos rfl]
      | ⟨1, _⟩ => by show j.val = if (32 : Nat) = 1 then 0 else j.val; rw [if_neg (by decide)])
  have hzero : broadcastInDim Cert.ReferenceIdeal.S1600000x32 ![] Cert.ReferenceIdeal.Gen.bcast_S_S1600000x32 (constant (F := Ideal) Cert.ReferenceIdeal.S_ .f32 0x00000000#32) (ix2 e j) = 0 := by
    refine (broadcastInDim_apply _ Cert.ReferenceIdeal.Gen.bcast_S_S1600000x32 (constant (F := Ideal) Cert.ReferenceIdeal.S_ .f32 0x00000000#32) (ix2 e j) (fun ax => ax.elim0) (fun ax => ax.elim0)).trans ?_
    exact Ideal.ofBits_zero_f32
  rw [hdot, hrow, hzero]

/-- The block body's value at a row and a feature is the whole-array function's there, once each loaded block is read
    as the rows of its array that the block covers (the row of block `T` at `p` is row `T·2000 + p`). -/
theorem blockIsMsg32 (xs : FVec Ideal Cert.ReferenceIdeal.S1600000x32 .f32) (ea : FVec Ideal Cert.ReferenceIdeal.S1600000x3 .f32)
    (we : FVec Ideal Cert.ReferenceIdeal.S3x32 .f32) (be : FVec Ideal Cert.ReferenceIdeal.S1x32 .f32)
    (a : Vec Ideal S2000x3 .f32) (w : Vec Ideal S3x32 .f32) (b : Vec Ideal S1x32 .f32) (x : Vec Ideal S2000x32 .f32)
    (p : Fin 2000) (q : Fin 32) (e : Fin 1600000)
    (hx : x (ix2 p q) = xs (ix2 e q)) (ha : ∀ k : Fin 3, a (ix2 p k) = ea (ix2 e k))
    (hw : ∀ k : Fin 3, w (ix2 k q) = we (ix2 k q)) (hb : b (ix2 (0 : Fin 1) q) = be (ix2 (0 : Fin 1) q)) :
    k0_pay1 (F := Ideal) a w b x (ix2 p q) = Cert.Spec.msg32 (F := Ideal) xs ea we be (ix2 e q) := by
  rw [blkMsg32, arrMsg32, hx, hb, add_assoc]
  simp only [ha, hw]

/-! ## From row blocks to the array

  Point `t` of the 800 fetches rows `2000·t … 2000·t + 1999` of the source features and of the edge attributes, the whole
  weight matrix and the whole bias row, and writes back rows `2000·t … 2000·t + 1999` of the output. -/

/-- The printed index maps over the grid: the two edge-indexed inputs and the output sit at block `(t, 0)`, the weights
    and the bias row at block `(0, 0)`. -/
theorem blockIdx32 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

section Blocks
variable (V : (c : Dev nD) → (b : Ref sig .tc) → Buf (Elt Ideal) ((c : Thread nD τ).loc b)) (c : Dev nD)

/-- The source-feature block at point `t`, row `p`, is row `2000·t + p` of the source features. -/
theorem srcBlock32 (t : Fin cfg0.N) (p : Fin 2000) (q : Fin 32) (e : Fin 1600000) (he : e.val = t.val * 2000 + p.val) :
    (iblk0 V c 0 t : Vec Ideal S2000x32 .f32) (ix2 p q) = (V c main_v4 : S1600000x32.Idx → EReal) (ix2 e q) := by
  show V c main_v4 (((cfg0.win 0).blk t).view.emb (ix2 p q)) = V c main_v4 (ix2 e q)
  refine congrArg (V c main_v4) (funext fun ax => Fin.ext ?_)
  obtain ⟨h0, h1, -⟩ := blockIdx32 t
  match ax with
  | ⟨0, _⟩ => show win0_0.index t (0 : Fin 2) * 2000 + 1 * p.val = e.val; rw [h0, he]; omega
  | ⟨1, _⟩ => show win0_0.index t (1 : Fin 2) * 32 + 1 * q.val = q.val; rw [h1]; omega

/-- The edge-attribute block at point `t`, row `p`, is row `2000·t + p` of the edge attributes. -/
theorem attrBlock32 (t : Fin cfg0.N) (p : Fin 2000) (k : Fin 3) (e : Fin 1600000) (he : e.val = t.val * 2000 + p.val) :
    (iblk0 V c 1 t : Vec Ideal S2000x3 .f32) (ix2 p k) = (V c main_arg2 : S1600000x3.Idx → EReal) (ix2 e k) := by
  show V c main_arg2 (((cfg0.win 1).blk t).view.emb (ix2 p k)) = V c main_arg2 (ix2 e k)
  refine congrArg (V c main_arg2) (funext fun ax => Fin.ext ?_)
  obtain ⟨-, -, h0, h1, -⟩ := blockIdx32 t
  match ax with
  | ⟨0, _⟩ => show win0_1.index t (0 : Fin 2) * 2000 + 1 * p.val = e.val; rw [h0, he]; omega
  | ⟨1, _⟩ => show win0_1.index t (1 : Fin 2) * 3 + 1 * k.val = k.val; rw [h1]; omega

/-- The weight block at every point is the weight matrix. -/
theorem weightBlock32 (t : Fin cfg0.N) (k : Fin 3) (q : Fin 32) :
    (iblk0 V c 2 t : Vec Ideal S3x32 .f32) (ix2 k q) = (V c main_arg4 : S3x32.Idx → EReal) (ix2 k q) := by
  show V c main_arg4 (((cfg0.win 2).blk t).view.emb (ix2 k q)) = V c main_arg4 (ix2 k q)
  refine congrArg (V c main_arg4) (funext fun ax => Fin.ext ?_)
  obtain ⟨-, -, -, -, h0, h1, -⟩ := blockIdx32 t
  match ax with
  | ⟨0, _⟩ => show win0_2.index t (0 : Fin 2) * 3 + 1 * k.val = k.val; rw [h0]; omega
  | ⟨1, _⟩ => show win0_2.index t (1 : Fin 2) * 32 + 1 * q.val = q.val; rw [h1]; omega

/-- The bias block at every point is the bias row. -/
theorem biasBlock32 (t : Fin cfg0.N) (z : Fin 1) (q : Fin 32) :
    (iblk0 V c 3 t : Vec Ideal S1x32 .f32) (ix2 z q) = (V c main_v5 : S1x32.Idx → EReal) (ix2 z q) := by
  show V c main_v5 (((cfg0.win 3).blk t).view.emb (ix2 z q)) = V c main_v5 (ix2 z q)
  refine congrArg (V c main_v5) (funext fun ax => Fin.ext ?_)
  obtain ⟨-, -, -, -, -, -, h0, h1, -⟩ := blockIdx32 t
  match ax with
  | ⟨0, _⟩ => show win0_3.index t (0 : Fin 2) * 1 + 1 * z.val = z.val; rw [h0]; omega
  | ⟨1, _⟩ => show win0_3.index t (1 : Fin 2) * 32 + 1 * q.val = q.val; rw [h1]; omega

end Blocks

section Final
variable (V : (c : Dev nD) → (b : Ref sig .tc) → Buf (Elt Ideal) ((c : Thread nD τ).loc b)) (c : Dev nD)

/-- What point `t` writes back is block `t` of the whole-array messages of the arrays the region finds. -/
theorem writtenBack32 (t : Fin cfg0.N) :
    (dat0 (F := Ideal) V c).flushed 4 t
      = ((cfg0.win 4).blk t).view.read (Elt Ideal) (Cert.Spec.msg32 (F := Ideal) (V c main_v4) (V c main_arg2) (V c main_arg4) (V c main_v5)) := by
  show (cfg0.win 4).cut (grid0.coords t) ((dat0 V c).after 4 t) = _
  rw [after0_4]
  unfold out0_4
  rw [View.canon_unit_zero zeroOff32]
  simp only [View.ld_unit_zero (S := S2000x3) zeroOff32, View.ld_unit_zero (S := S3x32) zeroOff32, View.ld_unit_zero (S := S1x32) zeroOff32, View.ld_unit_zero (S := S2000x32) zeroOff32]
  show (k0_pay1 (F := Ideal) (iblk0 V c 1 t) (iblk0 V c 2 t) (iblk0 V c 3 t) (iblk0 V c 0 t) : S2000x32.Idx → EReal)
    = fun y : S2000x32.Idx => Cert.Spec.msg32 (F := Ideal) (V c main_v4) (V c main_arg2) (V c main_arg4) (V c main_v5) (((cfg0.win 4).blk t).view.emb y)
  funext y
  obtain ⟨p, q, rfl⟩ : ∃ (p : Fin 2000) (q : Fin 32), y = ix2 p q := ⟨y 0, y 1, eq_ix2 y⟩
  have hN : t.val < 800 := Nat.lt_of_lt_of_eq t.isLt (N_0 : cfg0.N = 800)
  have hrow : t.val * 2000 + p.val < 1600000 := by have := p.isLt; omega
  obtain ⟨-, -, -, -, -, -, -, -, h0, h1⟩ := blockIdx32 t
  have hemb : ((cfg0.win 4).blk t).view.emb (ix2 p q) = (ix2 (⟨t.val * 2000 + p.val, hrow⟩ : Fin 1600000) q : S1600000x32.Idx) :=
    funext fun ax => Fin.ext (by
      match ax with
      | ⟨0, _⟩ => show win0_4.index t (0 : Fin 2) * 2000 + 1 * p.val = t.val * 2000 + p.val; rw [h0]; omega
      | ⟨1, _⟩ => show win0_4.index t (1 : Fin 2) * 32 + 1 * q.val = q.val; rw [h1]; omega)
  rw [hemb]
  exact blockIsMsg32 (V c main_v4) (V c main_arg2) (V c main_arg4) (V c main_v5)
    (iblk0 V c 1 t) (iblk0 V c 2 t) (iblk0 V c 3 t) (iblk0 V c 0 t) p q ⟨t.val * 2000 + p.val, hrow⟩
    (srcBlock32 V c t p q _ rfl) (fun k => attrBlock32 V c t p k _ rfl) (fun k => weightBlock32 V c t k q) (biasBlock32 V c t 0 q)

/-- An index of the output array is in point `t`'s block iff each coordinate is in the block's range on its axis. -/
theorem inBlock32 (t : Fin cfg0.N) (i : S1600000x32.Idx) :
    i ∈ ((cfg0.win 4).blk t).view.set ↔ ∀ a : Fin 2, win0_4.index t a * S2000x32.size a ≤ (i a).val ∧ (i a).val < win0_4.index t a * S2000x32.size a + S2000x32.size a := by
  show i ∈ ((View.whole main_v6).slice (win0_4.rect t)).set ↔ _
  rw [View.set_slice_whole, Rect.mem_set_unit]
  exact Iff.rfl

/-- Every row of the output is in the block of the point `row / 2000`. -/
theorem covered32 (i : S1600000x32.Idx) :
    ∃ t : Fin cfg0.N, (cfg0.win 4).flush t = true ∧ i ∈ ((cfg0.win 4).blk t).view.set := by
  have hi0 : (i 0).val < 1600000 := (i 0).isLt
  have hi1 : (i 1).val < 32 := (i 1).isLt
  have hN : cfg0.N = 800 := N_0
  have ht : (i 0).val / 2000 < cfg0.N := by rw [hN]; omega
  refine ⟨⟨(i 0).val / 2000, ht⟩, flush0_4 _, ?_⟩
  rw [inBlock32]
  obtain ⟨-, -, -, -, -, -, -, -, h0, h1⟩ := blockIdx32 ⟨(i 0).val / 2000, ht⟩
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win0_4.index ⟨(i 0).val / 2000, ht⟩ (1 : Fin 2) * 32 ≤ (i 1).val ∧ (i 1).val < win0_4.index ⟨(i 0).val / 2000, ht⟩ (1 : Fin 2) * 32 + 32
    rw [h1]; omega

end Final

end Msg32

theorem region0 (V : (c : Dev nD) → (b : Ref sig .tc) → Buf (Elt Ideal) ((c : Thread nD τ).loc b)) (c : Dev nD) :
    (dat0 (F := Ideal) V c).arrAt 4 cfg0.N = Cert.Spec.msg32 (F := Ideal) (V c main_v4) (V c main_arg2) (V c main_arg4) (V c main_v5) := by
  exact (dat0 (F := Ideal) V c).arrAt_eq_of_cover 4 (Cert.Spec.msg32 (F := Ideal) (V c main_v4) (V c main_arg2) (V c main_arg4) (V c main_v5))
    (fun t _ => Msg32.writtenBack32 V c t) Msg32.covered32

end Cert.KVal

end
-- ==== Proof.Region1.lean ====
/-
  REGION 1 (the first node update, 20 row blocks of 5000 nodes).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«408218_j49898930045492_2_alg».proof.Proof.Gen.KernelIdeal.Frame
import proofs.«408218_j49898930045492_2_alg».proof.Proof.Gen.ReferenceIdeal.Read
import proofs.«408218_j49898930045492_2_alg».proof.Proof.Spec

set_option maxRecDepth 16384

noncomputable section

namespace Cert.KVal

open Idealize.ShloMosaic Idealize.ShloMosaic.TcCoe Idealize.SL.Sem
open Idealize.ShloMosaic.Pipeline (Dat Cfg Window)
open Cert.KernelIdeal Cert.KernelIdeal.Gen

open Idealize.ShloMosaic.ValueIdx

namespace NodeUpdate32

/-! ### The two products of a row block: A is (x + agg)·Wa, B is hidden·Wb -/

theorem lhs_blkProdA_0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem lhs_blkProdA_1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem rhs_blkProdA_0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem rhs_blkProdA_1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

/-- Entry (p, q) of the block product 5000×32 by 32×128 into a zero accumulator is the plain sum over the 32 inner coordinates. -/
theorem blkProdA_apply (a : FVec Ideal S5000x32 .bf16) (w : FVec Ideal S32x128 .bf16) (p : Fin 5000) (q : Fin 128) :
    matmul dot_S5000x32_S32x128_S5000x128_1_0_0_1_n_n none a w (constant (F := Ideal) S5000x128 .f32 0x00000000#32) (ix2 p q)
      = ∑ k : Fin 32, a (ix2 p k) * w (ix2 k q) := by
  refine (Ideal.matmul_constant_zero_apply dot_S5000x32_S32x128_S5000x128_1_0_0_1_n_n none a w (ix2 p q)).trans ?_
  rw [← Equiv.sum_comp (ValueIdx.contrEquiv1 dot_S5000x32_S32x128_S5000x128_1_0_0_1_n_n 32 rfl rfl).symm]
  refine Finset.sum_congr rfl fun k _ => ?_
  have hk := ValueIdx.contrEquiv1_symm_val dot_S5000x32_S32x128_S5000x128_1_0_0_1_n_n 32 rfl rfl k
  have el : dot_S5000x32_S32x128_S5000x128_1_0_0_1_n_n.lhsIdx (ix2 p q) ((ValueIdx.contrEquiv1 dot_S5000x32_S32x128_S5000x128_1_0_0_1_n_n 32 rfl rfl).symm k) = ix2 p k := funext fun a => Fin.ext (by
    match a with
    | ⟨0, _⟩ => exact lhs_blkProdA_0 _ _
    | ⟨1, _⟩ => exact (lhs_blkProdA_1 _ _).trans hk)
  have er : dot_S5000x32_S32x128_S5000x128_1_0_0_1_n_n.rhsIdx (ix2 p q) ((ValueIdx.contrEquiv1 dot_S5000x32_S32x128_S5000x128_1_0_0_1_n_n 32 rfl rfl).symm k) = ix2 k q := funext fun a => Fin.ext (by
    match a with
    | ⟨0, _⟩ => exact (rhs_blkProdA_0 _ _).trans hk
    | ⟨1, _⟩ => exact rhs_blkProdA_1 _ _)
  rw [el, er]

theorem lhs_blkProdB_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blkProdB_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blkProdB_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blkProdB_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product 5000×128 by 128×128 into a zero accumulator is the plain sum over the 128 inner coordinates. -/
theorem blkProdB_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blkProdB_0 _ _
    | ⟨1, _⟩ => exact (lhs_blkProdB_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blkProdB_0 _ _).trans hk
    | ⟨1, _⟩ => exact rhs_blkProdB_1 _ _)
  rw [el, er]

/-- The float zero both programs clamp against, kept as its word. -/
abbrev Z : EReal := Ideal.ofBits .f32 0x00000000#32

/-- The hidden layer of a row block at row p, feature j: relu((x + agg)·Wa + ba). -/
def hidBlk (x0 x1 : Vec Ideal S5000x32 .f32) (x2 : Vec Ideal S32x128 .f32) (x3 : Vec Ideal S1x128 .f32) (p : Fin 5000) (j : Fin 128) : EReal :=
  max ((∑ k : Fin 32, (x0 (ix2 p k) + x1 (ix2 p k)) * x2 (ix2 k j)) + x3 (ix2 (0 : Fin 1) j)) Z

/-- The block the body stores, at row p and column q: relu(hidden(p,·)·Wb + bb), the hidden layer that of row p alone
    (narrowing to bf16 is the identity on extended reals). -/
theorem pay_apply (x0 x1 : Vec Ideal S5000x32 .f32) (x2 : Vec Ideal S32x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = max ((∑ j : Fin 128, hidBlk x0 x1 x2 x3 p j * x4 (ix2 j q)) + x5 (ix2 (0 : Fin 1) q)) Z := by
  unfold k1_pay1
  simp only [shapeCast_self]
  rw [maximumf_apply, addf_apply, blkProdB_apply, broadcastTo_1b_ab_apply]
  refine congrArg₂ max (congrArg₂ (· + ·) (Finset.sum_congr rfl fun j _ => congrArg₂ (· * ·) ?_ rfl) rfl) rfl
  rw [truncf_apply, maximumf_apply, addf_apply, blkProdA_apply, broadcastTo_1b_ab_apply]
  rfl

/-! ### The two products of the whole arrays: A is (x + agg)·Wa, B is hidden·Wb -/

theorem lhs_arrProdA_0 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x128_S100000x128_1_0_0_1_n_n.lhsBatch by decide), dif_pos (show (0 : Fin Cert.ReferenceIdeal.S100000x32.rank) ∈ Cert.ReferenceIdeal.dot_S100000x32_S32x128_S100000x128_1_0_0_1_n_n.lhsNonContracting by decide)]
  rfl
theorem lhs_arrProdA_1 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.lhsIdx i q 1).val = (q ⟨0, by decide⟩).val :=
  Cert.ReferenceIdeal.dot_S100000x32_S32x128_S100000x128_1_0_0_1_n_n.lhsIdx_val_of_single rfl i q
theorem rhs_arrProdA_0 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.rhsIdx i q 0).val = (q ⟨0, by decide⟩).val :=
  Cert.ReferenceIdeal.dot_S100000x32_S32x128_S100000x128_1_0_0_1_n_n.rhsIdx_val_of_single rfl i q
theorem rhs_arrProdA_1 (i : Cert.ReferenceIdeal.S100000x128.Idx) (q : Cert.ReferenceIdeal.dot_S100000x32_S32x128_S100000x128_1_0_0_1_n_n.contr.Idx) :
    (Cert.ReferenceIdeal.dot_S100000x32_S32x128_S100000x128_1_0_0_1_n_n.rhsIdx i q 1).val = (i 1).val := by
  unfold DotDims.rhsIdx
  rw [dif_neg (show ¬(1 : Fin Cert.ReferenceIdeal.S32x128.rank) ∈ Cert.ReferenceIdeal.dot_S100000x32_S32x128_S100000x128_1_0_0_1_n_n.rhsBatch by decide), dif_pos (show (1 : Fin Cert.ReferenceIdeal.S32x128.rank) ∈ Cert.ReferenceIdeal.dot_S100000x32_S32x128_S100000x128_1_0_0_1_n_n.rhsNonContracting by decide)]
  rfl

/-- Entry (n, q) of the whole product 100000×32 by 32×128 is the plain sum over the 32 inner coordinates. -/
theorem arrProdA_apply (a : FVec Ideal Cert.ReferenceIdeal.S100000x32 .f32) (w : FVec Ideal Cert.ReferenceIdeal.S32x128 .f32) (n : Fin 100000) (q : Fin 128) :
    Host.dotGeneral (F := Ideal) Cert.ReferenceIdeal.dot_S100000x32_S32x128_S100000x128_1_0_0_1_n_n none a w (ix2 n q)
      = ∑ k : Fin 32, a (ix2 n k) * w (ix2 k q) := by
  simp only [Host.dotGeneral]
  rw [Ideal.dotGeneral_apply, ← Equiv.sum_comp (ValueIdx.contrEquiv1 Cert.ReferenceIdeal.dot_S100000x32_S32x128_S100000x128_1_0_0_1_n_n 32 rfl rfl).symm]
  refine Finset.sum_congr rfl fun k _ => ?_
  have hk := ValueIdx.contrEquiv1_symm_val Cert.ReferenceIdeal.dot_S100000x32_S32x128_S100000x128_1_0_0_1_n_n 32 rfl rfl k
  have el : Cert.ReferenceIdeal.dot_S100000x32_S32x128_S100000x128_1_0_0_1_n_n.lhsIdx (ix2 n q) ((ValueIdx.contrEquiv1 Cert.ReferenceIdeal.dot_S100000x32_S32x128_S100000x128_1_0_0_1_n_n 32 rfl rfl).symm k) = ix2 n k := funext fun a => Fin.ext (by
    match a with
    | ⟨0, _⟩ => exact lhs_arrProdA_0 _ _
    | ⟨1, _⟩ => exact (lhs_arrProdA_1 _ _).trans hk)
  have er : Cert.ReferenceIdeal.dot_S100000x32_S32x128_S100000x128_1_0_0_1_n_n.rhsIdx (ix2 n q) ((ValueIdx.contrEquiv1 Cert.ReferenceIdeal.dot_S100000x32_S32x128_S100000x128_1_0_0_1_n_n 32 rfl rfl).symm k) = ix2 k q := funext fun a => Fin.ext (by
    match a with
    | ⟨0, _⟩ => exact (rhs_arrProdA_0 _ _).trans hk
    | ⟨1, _⟩ => exact rhs_arrProdA_1 _ _)
  rw [el, er]

theorem lhs_arrProdB_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_arrProdB_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arrProdB_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arrProdB_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (n, q) of the whole product 100000×128 by 128×128 is the plain sum over the 128 inner coordinates. -/
theorem arrProdB_apply (a : FVec Ideal Cert.ReferenceIdeal.S100000x128 .f32) (w : FVec Ideal Cert.ReferenceIdeal.S128x128 .f32) (n : Fin 100000) (q : Fin 128) :
    Host.dotGeneral (F := Ideal) Cert.ReferenceIdeal.dot_S100000x128_S128x128_S100000x128_1_0_0_1_n_n none a w (ix2 n q)
      = ∑ k : Fin 128, a (ix2 n k) * w (ix2 k q) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n q) ((ValueIdx.contrEquiv1 Cert.ReferenceIdeal.dot_S100000x128_S128x128_S100000x128_1_0_0_1_n_n 128 rfl rfl).symm k) = ix2 n k := funext fun a => Fin.ext (by
    match a with
    | ⟨0, _⟩ => exact lhs_arrProdB_0 _ _
    | ⟨1, _⟩ => exact (lhs_arrProdB_1 _ _).trans hk)
  have er : Cert.ReferenceIdeal.dot_S100000x128_S128x128_S100000x128_1_0_0_1_n_n.rhsIdx (ix2 n q) ((ValueIdx.contrEquiv1 Cert.ReferenceIdeal.dot_S100000x128_S128x128_S100000x128_1_0_0_1_n_n 128 rfl rfl).symm k) = ix2 k q := funext fun a => Fin.ext (by
    match a with
    | ⟨0, _⟩ => exact (rhs_arrProdB_0 _ _).trans hk
    | ⟨1, _⟩ => exact rhs_arrProdB_1 _ _)
  rw [el, er]

/-- A one-row matrix broadcast over the 100000 rows reads, at (n, q), the row's entry q. -/
theorem rowBcast_apply (h : Cert.ReferenceIdeal.S1x128.BroadcastsInDim Cert.ReferenceIdeal.S100000x128 ![0, 1])
    (b : FVec Ideal Cert.ReferenceIdeal.S1x128 .f32) (n : Fin 100000) (q : Fin 128) :
    broadcastInDim Cert.ReferenceIdeal.S100000x128 ![0, 1] h b (ix2 n q) = b (ix2 (0 : Fin 1) q) :=
  broadcastInDim_apply _ h b (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])

/-- The scalar zero broadcast over the whole array reads the zero word everywhere. -/
theorem zeroBcast_apply (h : Cert.ReferenceIdeal.S_.BroadcastsInDim Cert.ReferenceIdeal.S100000x128 ![]) (i : Cert.ReferenceIdeal.S100000x128.Idx) :
    broadcastInDim Cert.ReferenceIdeal.S100000x128 ![] h (constant (F := Ideal) Cert.ReferenceIdeal.S_ .f32 0x00000000#32) i = Z :=
  broadcastInDim_apply _ h (constant (F := Ideal) Cert.ReferenceIdeal.S_ .f32 0x00000000#32) i (fun a => a.elim0) (fun a => a.elim0)

/-- The hidden layer of the whole array at node n, feature j: relu((x + agg)·Wa + ba). -/
def hidArr (x agg : FVec Ideal Cert.ReferenceIdeal.S100000x32 .f32) (wa : FVec Ideal Cert.ReferenceIdeal.S32x128 .f32) (ba : FVec Ideal Cert.ReferenceIdeal.S1x128 .f32) (n : Fin 100000) (j : Fin 128) : EReal :=
  max ((∑ k : Fin 32, (x (ix2 n k) + agg (ix2 n k)) * wa (ix2 k j)) + ba (ix2 (0 : Fin 1) j)) Z

/-- The node update of the whole arrays at node n, column q: relu(hidden(n,·)·Wb + bb). -/
theorem node_apply (x agg : FVec Ideal Cert.ReferenceIdeal.S100000x32 .f32) (wa : FVec Ideal Cert.ReferenceIdeal.S32x128 .f32) (ba : FVec Ideal Cert.ReferenceIdeal.S1x128 .f32)
    (wb : FVec Ideal Cert.ReferenceIdeal.S128x128 .f32) (bb : FVec Ideal Cert.ReferenceIdeal.S1x128 .f32) (n : Fin 100000) (q : Fin 128) :
    Cert.Spec.node32 (F := Ideal) x agg wa ba wb bb (ix2 n q)
      = max ((∑ j : Fin 128, hidArr x agg wa ba n j * wb (ix2 j q)) + bb (ix2 (0 : Fin 1) q)) Z := by
  unfold Cert.Spec.node32
  rw [maximumf_apply, addf_apply, arrProdB_apply, rowBcast_apply, zeroBcast_apply]
  refine congrArg₂ max (congrArg₂ (· + ·) (Finset.sum_congr rfl fun j _ => congrArg₂ (· * ·) ?_ rfl) rfl) rfl
  rw [maximumf_apply, addf_apply, arrProdA_apply, rowBcast_apply, zeroBcast_apply]
  rfl

/-! ### From a row block to the whole array -/

/-- A block's entry equals the whole-array update's entry as soon as the block's rows of x and agg are the arrays'
    rows at node n and the four parameter blocks are the whole parameter arrays. -/
theorem pay_eq_node (x0 x1 : Vec Ideal S5000x32 .f32) (x2 : Vec Ideal S32x128 .f32) (x3 : Vec Ideal S1x128 .f32)
    (x4 : Vec Ideal S128x128 .f32) (x5 : Vec Ideal S1x128 .f32)
    (X AGG : FVec Ideal Cert.ReferenceIdeal.S100000x32 .f32) (WA : FVec Ideal Cert.ReferenceIdeal.S32x128 .f32) (BA : FVec Ideal Cert.ReferenceIdeal.S1x128 .f32)
    (WB : FVec Ideal Cert.ReferenceIdeal.S128x128 .f32) (BB : FVec Ideal Cert.ReferenceIdeal.S1x128 .f32)
    (p : Fin 5000) (q : Fin 128) (n : Fin 100000) (y : S5000x128.Idx) (i : Cert.ReferenceIdeal.S100000x128.Idx)
    (hy : y = ix2 p q) (hi : i = ix2 n q)
    (h0 : ∀ k : Fin 32, x0 (ix2 p k) = X (ix2 n k)) (h1 : ∀ k : Fin 32, x1 (ix2 p k) = AGG (ix2 n k))
    (h2 : ∀ (k : Fin 32) (j : Fin 128), x2 (ix2 k j) = WA (ix2 k j)) (h3 : ∀ j : Fin 128, x3 (ix2 (0 : Fin 1) j) = BA (ix2 (0 : Fin 1) j))
    (h4 : ∀ (j : Fin 128) (r : Fin 128), x4 (ix2 j r) = WB (ix2 j r)) (h5 : ∀ j : Fin 128, x5 (ix2 (0 : Fin 1) j) = BB (ix2 (0 : Fin 1) j)) :
    k1_pay1 (F := Ideal) x0 x1 x2 x3 x4 x5 y = Cert.Spec.node32 (F := Ideal) X AGG WA BA WB BB i := by
  subst hy hi
  rw [pay_apply, node_apply]
  unfold hidBlk hidArr
  simp only [h0, h1, h2, h3, h4, h5]

theorem hz : (![0, 0] : Fin 2 → Nat) = fun _ => 0 := funext fun a => by fin_cases a <;> rfl

/-- The index maps over the 20 grid points: the x, agg and output blocks are row block t, the parameter blocks are the
    whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Reads
variable (V : (c : Dev nD) → (b : Ref sig .tc) → Buf (Elt Ideal) ((c : Thread nD τ).loc b)) (c : Dev nD) (t : Fin cfg1.N)

/-- Row p of x's block at point t is row 5000·t + p of x. -/
theorem read0 (p : Fin 5000) (k : Fin 32) (n : Fin 100000) (hn : n.val = t.val * 5000 + p.val) :
    iblk1 (F := Ideal) V c 0 t (ix2 p k) = V c main_arg0 (ix2 n k) := by
  show V c main_arg0 (((cfg1.win 0).blk t).view.emb (ix2 p k)) = V c main_arg0 (ix2 n k)
  refine congrArg (V c main_arg0) (funext fun a => Fin.ext ?_)
  obtain ⟨e0, e1, -⟩ := idx_facts t
  match a with
  | ⟨0, _⟩ => show win1_0.index t (0 : Fin 2) * 5000 + 1 * p.val = n.val; rw [e0, hn]; omega
  | ⟨1, _⟩ => show win1_0.index t (1 : Fin 2) * 32 + 1 * k.val = k.val; rw [e1]; omega

/-- Row p of agg's block at point t is row 5000·t + p of agg. -/
theorem read1 (p : Fin 5000) (k : Fin 32) (n : Fin 100000) (hn : n.val = t.val * 5000 + p.val) :
    iblk1 (F := Ideal) V c 1 t (ix2 p k) = V c main_v9 (ix2 n k) := by
  show V c main_v9 (((cfg1.win 1).blk t).view.emb (ix2 p k)) = V c main_v9 (ix2 n k)
  refine congrArg (V c main_v9) (funext fun a => Fin.ext ?_)
  obtain ⟨-, -, e0, e1, -⟩ := idx_facts t
  match a with
  | ⟨0, _⟩ => show win1_1.index t (0 : Fin 2) * 5000 + 1 * p.val = n.val; rw [e0, hn]; omega
  | ⟨1, _⟩ => show win1_1.index t (1 : Fin 2) * 32 + 1 * k.val = k.val; rw [e1]; omega

/-- Wa's block is all of Wa at every point. -/
theorem read2 (k : Fin 32) (j : Fin 128) :
    iblk1 (F := Ideal) V c 2 t (ix2 k j) = V c main_arg6 (ix2 k j) := by
  show V c main_arg6 (((cfg1.win 2).blk t).view.emb (ix2 k j)) = V c main_arg6 (ix2 k j)
  refine congrArg (V c main_arg6) (funext fun a => Fin.ext ?_)
  obtain ⟨-, -, -, -, e0, e1, -⟩ := idx_facts t
  match a with
  | ⟨0, _⟩ => show win1_2.index t (0 : Fin 2) * 32 + 1 * k.val = k.val; rw [e0]; omega
  | ⟨1, _⟩ => show win1_2.index t (1 : Fin 2) * 128 + 1 * j.val = j.val; rw [e1]; omega

/-- ba's block is all of the row ba at every point. -/
theorem read3 (j : Fin 128) :
    iblk1 (F := Ideal) V c 3 t (ix2 (0 : Fin 1) j) = V c main_v10 (ix2 (0 : Fin 1) j) := by
  show V c main_v10 (((cfg1.win 3).blk t).view.emb (ix2 (0 : Fin 1) j)) = V c main_v10 (ix2 (0 : Fin 1) j)
  refine congrArg (V c main_v10) (funext fun a => Fin.ext ?_)
  obtain ⟨-, -, -, -, -, -, e0, e1, -⟩ := idx_facts t
  match a with
  | ⟨0, _⟩ => show win1_3.index t (0 : Fin 2) * 1 + 1 * 0 = 0; rw [e0]
  | ⟨1, _⟩ => show win1_3.index t (1 : Fin 2) * 128 + 1 * j.val = j.val; rw [e1]; omega

/-- Wb's block is all of Wb at every point. -/
theorem read4 (j : Fin 128) (r : Fin 128) :
    iblk1 (F := Ideal) V c 4 t (ix2 j r) = V c main_arg8 (ix2 j r) := by
  show V c main_arg8 (((cfg1.win 4).blk t).view.emb (ix2 j r)) = V c main_arg8 (ix2 j r)
  refine congrArg (V c main_arg8) (funext fun a => Fin.ext ?_)
  obtain ⟨-, -, -, -, -, -, -, -, e0, e1, -⟩ := idx_facts t
  match a with
  | ⟨0, _⟩ => show win1_4.index t (0 : Fin 2) * 128 + 1 * j.val = j.val; rw [e0]; omega
  | ⟨1, _⟩ => show win1_4.index t (1 : Fin 2) * 128 + 1 * r.val = r.val; rw [e1]; omega

/-- bb's block is all of the row bb at every point. -/
theorem read5 (j : Fin 128) :
    iblk1 (F := Ideal) V c 5 t (ix2 (0 : Fin 1) j) = V c main_v11 (ix2 (0 : Fin 1) j) := by
  show V c main_v11 (((cfg1.win 5).blk t).view.emb (ix2 (0 : Fin 1) j)) = V c main_v11 (ix2 (0 : Fin 1) j)
  refine congrArg (V c main_v11) (funext fun a => Fin.ext ?_)
  obtain ⟨-, -, -, -, -, -, -, -, -, -, e0, e1, -⟩ := idx_facts t
  match a with
  | ⟨0, _⟩ => show win1_5.index t (0 : Fin 2) * 1 + 1 * 0 = 0; rw [e0]
  | ⟨1, _⟩ => show win1_5.index t (1 : Fin 2) * 128 + 1 * j.val = j.val; rw [e1]; omega

/-- What point t writes back is row block t of the node update of the whole arrays. -/
theorem flushed_eq :
    (dat1 (F := Ideal) V c).flushed 6 t = ((cfg1.win 6).blk t).view.read (Elt Ideal)
      (Cert.Spec.node32 (F := Ideal) (V c main_arg0) (V c main_v9) (V c main_arg6) (V c main_v10) (V c main_arg8) (V c main_v11)) := by
  show (cfg1.win 6).cut (grid1.coords t) ((dat1 V c).after 6 t) = _
  rw [after1_6]
  unfold out1_6
  rw [View.canon_unit_zero hz]
  simp only [View.ld_unit_zero (S := S5000x32) hz, View.ld_unit_zero (S := S32x128) hz, View.ld_unit_zero (S := S1x128) hz, View.ld_unit_zero (S := S128x128) hz]
  funext y
  have hy0 : (y 0).val < 5000 := (y 0).isLt
  have ht : t.val < 20 := t.isLt
  obtain ⟨-, -, -, -, -, -, -, -, -, -, -, -, e0, e1⟩ := idx_facts t
  show k1_pay1 (F := Ideal) (iblk1 V c 0 t) (iblk1 V c 1 t) (iblk1 V c 2 t) (iblk1 V c 3 t) (iblk1 V c 4 t) (iblk1 V c 5 t) ((cfg1.win 6).xinj (grid1.coords t) y)
    = Cert.Spec.node32 (F := Ideal) (V c main_arg0) (V c main_v9) (V c main_arg6) (V c main_v10) (V c main_arg8) (V c main_v11) (((cfg1.win 6).blk t).view.emb y)
  refine pay_eq_node (iblk1 V c 0 t) (iblk1 V c 1 t) (iblk1 V c 2 t) (iblk1 V c 3 t) (iblk1 V c 4 t) (iblk1 V c 5 t)
    (V c main_arg0) (V c main_v9) (V c main_arg6) (V c main_v10) (V c main_arg8) (V c main_v11)
    ⟨(y 0).val, hy0⟩ ⟨(y 1).val, (y 1).isLt⟩ ⟨t.val * 5000 + (y 0).val, by omega⟩ _ _ ?_ ?_
    (fun k => read0 V c t _ k _ rfl) (fun k => read1 V c t _ k _ rfl) (fun k j => read2 V c t k j) (fun j => read3 V c t j)
    (fun j r => read4 V c t j r) (fun j => read5 V c t j)
  · funext a
    match a with
    | ⟨0, _⟩ => rfl
    | ⟨1, _⟩ => rfl
  · funext a
    apply Fin.ext
    match a with
    | ⟨0, _⟩ => show win1_6.index t (0 : Fin 2) * 5000 + 1 * (y 0).val = t.val * 5000 + (y 0).val; rw [e0]; omega
    | ⟨1, _⟩ => show win1_6.index t (1 : Fin 2) * 128 + 1 * (y 1).val = (y 1).val; rw [e1]; omega

end Reads

/-- An index of the output array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v12).slice (win1_6.rect t)).set ↔ _
  rw [View.set_slice_whole, Rect.mem_set_unit]
  exact Iff.rfl

/-- Row r of the output is written by the point r / 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < cfg1.N := by show (i 0).val / 5000 < 20; omega
  refine ⟨⟨(i 0).val / 5000, hlt⟩, flush1_6 _, ?_⟩
  rw [mem_blk]
  obtain ⟨-, -, -, -, -, -, -, -, -, -, -, -, e0, e1⟩ := idx_facts ⟨(i 0).val / 5000, hlt⟩
  intro a
  match a with
  | ⟨0, _⟩ =>
    show win1_6.index ⟨(i 0).val / 5000, hlt⟩ (0 : Fin 2) * 5000 ≤ (i 0).val ∧ (i 0).val < win1_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hlt⟩ (1 : Fin 2) * 128 ≤ (i 1).val ∧ (i 1).val < win1_6.index ⟨(i 0).val / 5000, hlt⟩ (1 : Fin 2) * 128 + 128
    rw [e1]; omega

end NodeUpdate32

theorem region1 (V : (c : Dev nD) → (b : Ref sig .tc) → Buf (Elt Ideal) ((c : Thread nD τ).loc b)) (c : Dev nD) :
    (dat1 (F := Ideal) V c).arrAt 6 cfg1.N = Cert.Spec.node32 (F := Ideal) (V c main_arg0) (V c main_v9) (V c main_arg6) (V c main_v10) (V c main_arg8) (V c main_v11) :=
  (dat1 (F := Ideal) V c).arrAt_eq_of_cover 6 _ (fun t _ => NodeUpdate32.flushed_eq V c t) NodeUpdate32.cover

end Cert.KVal

end
-- ==== Proof.Region2.lean ====
/-
  REGION 2 (the 128-wide message kernel, 800 row blocks of 2000 edges).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«408218_j49898930045492_2_alg».proof.Proof.Gen.KernelIdeal.Frame
import proofs.«408218_j49898930045492_2_alg».proof.Proof.Gen.ReferenceIdeal.Read
import proofs.«408218_j49898930045492_2_alg».proof.Proof.Spec

set_option maxRecDepth 16384

noncomputable section

namespace Cert.KVal

open Idealize.ShloMosaic Idealize.ShloMosaic.TcCoe Idealize.SL.Sem
open Idealize.ShloMosaic.Pipeline (Dat Cfg Window)
open Cert.KernelIdeal Cert.KernelIdeal.Gen
open Idealize.ShloMosaic.ValueIdx

namespace Msg128

/-! ## One edge's message, feature by feature

  At edge `e` and feature `j` (of 128) the message is `max (h_src[e,j] + (∑ k<3, ea[e,k]·We[k,j]) + be[0,j]) 0`. The block
  body groups the sum as `h + (lin + b)`, the whole-array function as `(h + lin) + b`; addition of extended reals is
  associative, so the two agree with no finiteness asked. -/

/-- Both offsets of a whole-block access are zero. -/
theorem zeroOff128 : (![0, 0] : Fin 2 → Nat) = fun _ => 0 := funext fun a => by fin_cases a <;> rfl

/-! ### The block product's operand indices, axis by axis -/

theorem blkLhs128_0 (i : S2000x128.Idx) (q : dot_S2000x3_S3x128_S2000x128_1_0_0_1_n_n.contr.Idx) :
    (dot_S2000x3_S3x128_S2000x128_1_0_0_1_n_n.lhsIdx i q 0).val = (i 0).val := by
  unfold DotDims.lhsIdx
  rw [dif_neg (show ¬(0 : Fin S2000x3.rank) ∈ dot_S2000x3_S3x128_S2000x128_1_0_0_1_n_n.lhsBatch by decide), dif_pos (show (0 : Fin S2000x3.rank) ∈ dot_S2000x3_S3x128_S2000x128_1_0_0_1_n_n.lhsNonContracting by decide)]
  rfl
theorem blkLhs128_1 (i : S2000x128.Idx) (q : dot_S2000x3_S3x128_S2000x128_1_0_0_1_n_n.contr.Idx) :
    (dot_S2000x3_S3x128_S2000x128_1_0_0_1_n_n.lhsIdx i q 1).val = (q ⟨0, by decide⟩).val :=
  dot_S2000x3_S3x128_S2000x128_1_0_0_1_n_n.lhsIdx_val_of_single rfl i q
theorem blkRhs128_0 (i : S2000x128.Idx) (q : dot_S2000x3_S3x128_S2000x128_1_0_0_1_n_n.contr.Idx) :
    (dot_S2000x3_S3x128_S2000x128_1_0_0_1_n_n.rhsIdx i q 0).val = (q ⟨0, by decide⟩).val :=
  dot_S2000x3_S3x128_S2000x128_1_0_0_1_n_n.rhsIdx_val_of_single rfl i q
theorem blkRhs128_1 (i : S2000x128.Idx) (q : dot_S2000x3_S3x128_S2000x128_1_0_0_1_n_n.contr.Idx) :
    (dot_S2000x3_S3x128_S2000x128_1_0_0_1_n_n.rhsIdx i q 1).val = (i 1).val := by
  unfold DotDims.rhsIdx
  rw [dif_neg (show ¬(1 : Fin S3x128.rank) ∈ dot_S2000x3_S3x128_S2000x128_1_0_0_1_n_n.rhsBatch by decide), dif_pos (show (1 : Fin S3x128.rank) ∈ dot_S2000x3_S3x128_S2000x128_1_0_0_1_n_n.rhsNonContracting by decide)]
  rfl

/-- The block product `ea_blk · We` into a zero accumulator, at row `p` and feature `q`: the sum over the three edge attributes. -/
theorem blkProd128 (a : FVec Ideal S2000x3 .f32) (w : FVec Ideal S3x128 .f32) (p : Fin 2000) (q : Fin 128) :
    matmul dot_S2000x3_S3x128_S2000x128_1_0_0_1_n_n (some .fp32) a w (constant (F := Ideal) S2000x128 .f32 0x00000000#32) (ix2 p q)
      = ∑ k : Fin 3, a (ix2 p k) * w (ix2 k q) := by
  simp only [matmul]
  rw [Ideal.matmul_constant_zero_apply, ← Equiv.sum_comp (ValueIdx.contrEquiv1 dot_S2000x3_S3x128_S2000x128_1_0_0_1_n_n 3 rfl rfl).symm]
  refine Finset.sum_congr rfl fun k _ => ?_
  have hk := ValueIdx.contrEquiv1_symm_val dot_S2000x3_S3x128_S2000x128_1_0_0_1_n_n 3 rfl rfl k
  have el : dot_S2000x3_S3x128_S2000x128_1_0_0_1_n_n.lhsIdx (ix2 p q) ((ValueIdx.contrEquiv1 dot_S2000x3_S3x128_S2000x128_1_0_0_1_n_n 3 rfl rfl).symm k) = ix2 p k := funext fun ax => Fin.ext (by
    match ax with
    | ⟨0, _⟩ => exact blkLhs128_0 _ _
    | ⟨1, _⟩ => exact (blkLhs128_1 _ _).trans hk)
  have er : dot_S2000x3_S3x128_S2000x128_1_0_0_1_n_n.rhsIdx (ix2 p q) ((ValueIdx.contrEquiv1 dot_S2000x3_S3x128_S2000x128_1_0_0_1_n_n 3 rfl rfl).symm k) = ix2 k q := funext fun ax => Fin.ext (by
    match ax with
    | ⟨0, _⟩ => exact (blkRhs128_0 _ _).trans hk
    | ⟨1, _⟩ => exact blkRhs128_1 _ _)
  rw [el, er]

/-- What the body stores at row `p`, feature `q` of its block, from the four blocks it loads. -/
theorem blkMsg128 (a : Vec Ideal S2000x3 .f32) (w : Vec Ideal S3x128 .f32) (b : Vec Ideal S1x128 .f32) (x : Vec Ideal S2000x128 .f32)
    (p : Fin 2000) (q : Fin 128) :
    k2_pay1 (F := Ideal) a w b x (ix2 p q)
      = max (x (ix2 p q) + ((∑ k : Fin 3, a (ix2 p k) * w (ix2 k q)) + b (ix2 (0 : Fin 1) q))) 0 := by
  unfold k2_pay1
  rw [maximumf_apply, addf_apply, addf_apply, shapeCast_self, shapeCast_self, blkProd128, broadcastTo_1b_ab_apply, broadcast_apply]
  show max _ (Ideal.ofBits .f32 0x00000000#32) = _
  rw [Ideal.ofBits_zero_f32]

/-! ### The whole-array function at an edge and a feature -/

/-- The whole-array messages at edge `e`, feature `j`. -/
theorem arrMsg128 (xs : FVec Ideal Cert.ReferenceIdeal.S1600000x128 .f32) (ea : FVec Ideal Cert.ReferenceIdeal.S1600000x3 .f32)
    (we : FVec Ideal Cert.ReferenceIdeal.S3x128 .f32) (be : FVec Ideal Cert.ReferenceIdeal.S1x128 .f32) (e : Fin 1600000) (j : Fin 128) :
    Cert.Spec.msg128 (F := Ideal) xs ea we be (ix2 e j)
      = max ((xs (ix2 e j) + ∑ k : Fin 3, ea (ix2 e k) * we (ix2 k j)) + be (ix2 (0 : Fin 1) j)) 0 := by
  unfold Cert.Spec.msg128
  rw [maximumf_apply, addf_apply, addf_apply]
  have hdot : Host.dotGeneral (F := Ideal) Cert.ReferenceIdeal.dot_S1600000x3_S3x128_S1600000x128_1_0_0_1_n_n none ea we (ix2 e j)
      = ∑ k : Fin 3, ea (ix2 e k) * we (ix2 k j) := by
    refine (Cert.ReferenceIdeal.Read.val_main_v38_apply ea we (ix2 e j)).trans ?_
    refine Finset.sum_congr rfl fun k _ => ?_
    have el : Cert.ReferenceIdeal.Read.lidx_main_v38 (ix2 e j) k = ix2 e k := funext fun ax => Fin.ext (by
      match ax with
      | ⟨0, _⟩ => rfl
      | ⟨1, _⟩ => rfl)
    have er : Cert.ReferenceIdeal.Read.ridx_main_v38 (ix2 e j) k = ix2 k j := funext fun ax => Fin.ext (by
      match ax with
      | ⟨0, _⟩ => rfl
      | ⟨1, _⟩ => rfl)
    rw [el, er]
  have hrow : broadcastInDim Cert.ReferenceIdeal.S1600000x128 ![0, 1] Cert.ReferenceIdeal.Gen.bcast_S1x128_S1600000x128_0_1 be (ix2 e j) = be (ix2 (0 : Fin 1) j) :=
    broadcastInDim_apply _ Cert.ReferenceIdeal.Gen.bcast_S1x128_S1600000x128_0_1 be (ix2 e j) (ix2 (0 : Fin 1) j) (fun ax => match ax with
      | ⟨0, _⟩ => by show 0 = if (1 : Nat) = 1 then 0 else e.val; rw [if_pos rfl]
      | ⟨1, _⟩ => by show j.val = if (128 : Nat) = 1 then 0 else j.val; rw [if_neg (by decide)])
  have hzero : broadcastInDim Cert.ReferenceIdeal.S1600000x128 ![] Cert.ReferenceIdeal.Gen.bcast_S_S1600000x128 (constant (F := Ideal) Cert.ReferenceIdeal.S_ .f32 0x00000000#32) (ix2 e j) = 0 := by
    refine (broadcastInDim_apply _ Cert.ReferenceIdeal.Gen.bcast_S_S1600000x128 (constant (F := Ideal) Cert.ReferenceIdeal.S_ .f32 0x00000000#32) (ix2 e j) (fun ax => ax.elim0) (fun ax => ax.elim0)).trans ?_
    exact Ideal.ofBits_zero_f32
  rw [hdot, hrow, hzero]

/-- The block body's value at a row and a feature is the whole-array function's there, once each loaded block is read
    as the rows of its array that the block covers (the row of block `T` at `p` is row `T·2000 + p`). -/
theorem blockIsMsg128 (xs : FVec Ideal Cert.ReferenceIdeal.S1600000x128 .f32) (ea : FVec Ideal Cert.ReferenceIdeal.S1600000x3 .f32)
    (we : FVec Ideal Cert.ReferenceIdeal.S3x128 .f32) (be : FVec Ideal Cert.ReferenceIdeal.S1x128 .f32)
    (a : Vec Ideal S2000x3 .f32) (w : Vec Ideal S3x128 .f32) (b : Vec Ideal S1x128 .f32) (x : Vec Ideal S2000x128 .f32)
    (p : Fin 2000) (q : Fin 128) (e : Fin 1600000)
    (hx : x (ix2 p q) = xs (ix2 e q)) (ha : ∀ k : Fin 3, a (ix2 p k) = ea (ix2 e k))
    (hw : ∀ k : Fin 3, w (ix2 k q) = we (ix2 k q)) (hb : b (ix2 (0 : Fin 1) q) = be (ix2 (0 : Fin 1) q)) :
    k2_pay1 (F := Ideal) a w b x (ix2 p q) = Cert.Spec.msg128 (F := Ideal) xs ea we be (ix2 e q) := by
  rw [blkMsg128, arrMsg128, hx, hb, add_assoc]
  simp only [ha, hw]

/-! ## From row blocks to the array

  Point `t` of the 800 fetches rows `2000·t … 2000·t + 1999` of the source features and of the edge attributes, the whole
  weight matrix and the whole bias row, and writes back rows `2000·t … 2000·t + 1999` of the output. -/

/-- The printed index maps over the grid: the two edge-indexed inputs and the output sit at block `(t, 0)`, the weights
    and the bias row at block `(0, 0)`. -/
theorem blockIdx128 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section Blocks
variable (V : (c : Dev nD) → (b : Ref sig .tc) → Buf (Elt Ideal) ((c : Thread nD τ).loc b)) (c : Dev nD)

/-- The source-feature block at point `t`, row `p`, is row `2000·t + p` of the source features. -/
theorem srcBlock128 (t : Fin cfg2.N) (p : Fin 2000) (q : Fin 128) (e : Fin 1600000) (he : e.val = t.val * 2000 + p.val) :
    (iblk2 V c 0 t : Vec Ideal S2000x128 .f32) (ix2 p q) = (V c main_v13 : S1600000x128.Idx → EReal) (ix2 e q) := by
  show V c main_v13 (((cfg2.win 0).blk t).view.emb (ix2 p q)) = V c main_v13 (ix2 e q)
  refine congrArg (V c main_v13) (funext fun ax => Fin.ext ?_)
  obtain ⟨h0, h1, -⟩ := blockIdx128 t
  match ax with
  | ⟨0, _⟩ => show win2_0.index t (0 : Fin 2) * 2000 + 1 * p.val = e.val; rw [h0, he]; omega
  | ⟨1, _⟩ => show win2_0.index t (1 : Fin 2) * 128 + 1 * q.val = q.val; rw [h1]; omega

/-- The edge-attribute block at point `t`, row `p`, is row `2000·t + p` of the edge attributes. -/
theorem attrBlock128 (t : Fin cfg2.N) (p : Fin 2000) (k : Fin 3) (e : Fin 1600000) (he : e.val = t.val * 2000 + p.val) :
    (iblk2 V c 1 t : Vec Ideal S2000x3 .f32) (ix2 p k) = (V c main_arg2 : S1600000x3.Idx → EReal) (ix2 e k) := by
  show V c main_arg2 (((cfg2.win 1).blk t).view.emb (ix2 p k)) = V c main_arg2 (ix2 e k)
  refine congrArg (V c main_arg2) (funext fun ax => Fin.ext ?_)
  obtain ⟨-, -, h0, h1, -⟩ := blockIdx128 t
  match ax with
  | ⟨0, _⟩ => show win2_1.index t (0 : Fin 2) * 2000 + 1 * p.val = e.val; rw [h0, he]; omega
  | ⟨1, _⟩ => show win2_1.index t (1 : Fin 2) * 3 + 1 * k.val = k.val; rw [h1]; omega

/-- The weight block at every point is the weight matrix. -/
theorem weightBlock128 (t : Fin cfg2.N) (k : Fin 3) (q : Fin 128) :
    (iblk2 V c 2 t : Vec Ideal S3x128 .f32) (ix2 k q) = (V c main_arg10 : S3x128.Idx → EReal) (ix2 k q) := by
  show V c main_arg10 (((cfg2.win 2).blk t).view.emb (ix2 k q)) = V c main_arg10 (ix2 k q)
  refine congrArg (V c main_arg10) (funext fun ax => Fin.ext ?_)
  obtain ⟨-, -, -, -, h0, h1, -⟩ := blockIdx128 t
  match ax with
  | ⟨0, _⟩ => show win2_2.index t (0 : Fin 2) * 3 + 1 * k.val = k.val; rw [h0]; omega
  | ⟨1, _⟩ => show win2_2.index t (1 : Fin 2) * 128 + 1 * q.val = q.val; rw [h1]; omega

/-- The bias block at every point is the bias row. -/
theorem biasBlock128 (t : Fin cfg2.N) (z : Fin 1) (q : Fin 128) :
    (iblk2 V c 3 t : Vec Ideal S1x128 .f32) (ix2 z q) = (V c main_v14 : S1x128.Idx → EReal) (ix2 z q) := by
  show V c main_v14 (((cfg2.win 3).blk t).view.emb (ix2 z q)) = V c main_v14 (ix2 z q)
  refine congrArg (V c main_v14) (funext fun ax => Fin.ext ?_)
  obtain ⟨-, -, -, -, -, -, h0, h1, -⟩ := blockIdx128 t
  match ax with
  | ⟨0, _⟩ => show win2_3.index t (0 : Fin 2) * 1 + 1 * z.val = z.val; rw [h0]; omega
  | ⟨1, _⟩ => show win2_3.index t (1 : Fin 2) * 128 + 1 * q.val = q.val; rw [h1]; omega

end Blocks

section Final
variable (V : (c : Dev nD) → (b : Ref sig .tc) → Buf (Elt Ideal) ((c : Thread nD τ).loc b)) (c : Dev nD)

/-- What point `t` writes back is block `t` of the whole-array messages of the arrays the region finds. -/
theorem writtenBack128 (t : Fin cfg2.N) :
    (dat2 (F := Ideal) V c).flushed 4 t
      = ((cfg2.win 4).blk t).view.read (Elt Ideal) (Cert.Spec.msg128 (F := Ideal) (V c main_v13) (V c main_arg2) (V c main_arg10) (V c main_v14)) := by
  show (cfg2.win 4).cut (grid2.coords t) ((dat2 V c).after 4 t) = _
  rw [after2_4]
  unfold out2_4
  rw [View.canon_unit_zero zeroOff128]
  simp only [View.ld_unit_zero (S := S2000x3) zeroOff128, View.ld_unit_zero (S := S3x128) zeroOff128, View.ld_unit_zero (S := S1x128) zeroOff128, View.ld_unit_zero (S := S2000x128) zeroOff128]
  show (k2_pay1 (F := Ideal) (iblk2 V c 1 t) (iblk2 V c 2 t) (iblk2 V c 3 t) (iblk2 V c 0 t) : S2000x128.Idx → EReal)
    = fun y : S2000x128.Idx => Cert.Spec.msg128 (F := Ideal) (V c main_v13) (V c main_arg2) (V c main_arg10) (V c main_v14) (((cfg2.win 4).blk t).view.emb y)
  funext y
  obtain ⟨p, q, rfl⟩ : ∃ (p : Fin 2000) (q : Fin 128), y = ix2 p q := ⟨y 0, y 1, eq_ix2 y⟩
  have hN : t.val < 800 := Nat.lt_of_lt_of_eq t.isLt (N_2 : cfg2.N = 800)
  have hrow : t.val * 2000 + p.val < 1600000 := by have := p.isLt; omega
  obtain ⟨-, -, -, -, -, -, -, -, h0, h1⟩ := blockIdx128 t
  have hemb : ((cfg2.win 4).blk t).view.emb (ix2 p q) = (ix2 (⟨t.val * 2000 + p.val, hrow⟩ : Fin 1600000) q : S1600000x128.Idx) :=
    funext fun ax => Fin.ext (by
      match ax with
      | ⟨0, _⟩ => show win2_4.index t (0 : Fin 2) * 2000 + 1 * p.val = t.val * 2000 + p.val; rw [h0]; omega
      | ⟨1, _⟩ => show win2_4.index t (1 : Fin 2) * 128 + 1 * q.val = q.val; rw [h1]; omega)
  rw [hemb]
  exact blockIsMsg128 (V c main_v13) (V c main_arg2) (V c main_arg10) (V c main_v14)
    (iblk2 V c 1 t) (iblk2 V c 2 t) (iblk2 V c 3 t) (iblk2 V c 0 t) p q ⟨t.val * 2000 + p.val, hrow⟩
    (srcBlock128 V c t p q _ rfl) (fun k => attrBlock128 V c t p k _ rfl) (fun k => weightBlock128 V c t k q) (biasBlock128 V c t 0 q)

/-- An index of the output array is in point `t`'s block iff each coordinate is in the block's range on its axis. -/
theorem inBlock128 (t : Fin cfg2.N) (i : S1600000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v15).slice (win2_4.rect t)).set ↔ _
  rw [View.set_slice_whole, Rect.mem_set_unit]
  exact Iff.rfl

/-- Every row of the output is in the block of the point `row / 2000`. -/
theorem covered128 (i : S1600000x128.Idx) :
    ∃ t : Fin cfg2.N, (cfg2.win 4).flush t = true ∧ i ∈ ((cfg2.win 4).blk t).view.set := by
  have hi0 : (i 0).val < 1600000 := (i 0).isLt
  have hi1 : (i 1).val < 128 := (i 1).isLt
  have hN : cfg2.N = 800 := N_2
  have ht : (i 0).val / 2000 < cfg2.N := by rw [hN]; omega
  refine ⟨⟨(i 0).val / 2000, ht⟩, flush2_4 _, ?_⟩
  rw [inBlock128]
  obtain ⟨-, -, -, -, -, -, -, -, h0, h1⟩ := blockIdx128 ⟨(i 0).val / 2000, ht⟩
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [h0]; show (i 0).val / 2000 * 2000 ≤ (i 0).val ∧ (i 0).val < (i 0).val / 2000 * 2000 + 2000; omega
  | ⟨1, _⟩ =>
    show win2_4.index ⟨(i 0).val / 2000, ht⟩ (1 : Fin 2) * 128 ≤ (i 1).val ∧ (i 1).val < win2_4.index ⟨(i 0).val / 2000, ht⟩ (1 : Fin 2) * 128 + 128
    rw [h1]; omega

end Final

end Msg128

theorem region2 (V : (c : Dev nD) → (b : Ref sig .tc) → Buf (Elt Ideal) ((c : Thread nD τ).loc b)) (c : Dev nD) :
    (dat2 (F := Ideal) V c).arrAt 4 cfg2.N = Cert.Spec.msg128 (F := Ideal) (V c main_v13) (V c main_arg2) (V c main_arg10) (V c main_v14) := by
  exact (dat2 (F := Ideal) V c).arrAt_eq_of_cover 4 (Cert.Spec.msg128 (F := Ideal) (V c main_v13) (V c main_arg2) (V c main_arg10) (V c main_v14))
    (fun t _ => Msg128.writtenBack128 V c t) Msg128.covered128

end Cert.KVal

end
-- ==== Proof.Region3.lean ====
/-
  REGION 3 (the second node update, 20 row blocks of 5000 nodes).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«408218_j49898930045492_2_alg».proof.Proof.Gen.KernelIdeal.Frame
import proofs.«408218_j49898930045492_2_alg».proof.Proof.Gen.ReferenceIdeal.Read
import proofs.«408218_j49898930045492_2_alg».proof.Proof.Spec

set_option maxRecDepth 16384

noncomputable section

namespace Cert.KVal

open Idealize.ShloMosaic Idealize.ShloMosaic.TcCoe Idealize.SL.Sem
open Idealize.ShloMosaic.Pipeline (Dat Cfg Window)
open Cert.KernelIdeal Cert.KernelIdeal.Gen

open Idealize.ShloMosaic.ValueIdx

namespace NodeUpdate128

/-! ### The two products of a row block: A is (x + agg)·Wa, B is hidden·Wb -/

theorem lhs_blkProdA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blkProdA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blkProdA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blkProdA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product 5000×128 by 128×128 into a zero accumulator is the plain sum over the 128 inner coordinates. -/
theorem blkProdA_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blkProdA_0 _ _
    | ⟨1, _⟩ => exact (lhs_blkProdA_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blkProdA_0 _ _).trans hk
    | ⟨1, _⟩ => exact rhs_blkProdA_1 _ _)
  rw [el, er]

theorem lhs_blkProdB_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blkProdB_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blkProdB_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blkProdB_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the block product 5000×128 by 128×128 into a zero accumulator is the plain sum over the 128 inner coordinates. -/
theorem blkProdB_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blkProdB_0 _ _
    | ⟨1, _⟩ => exact (lhs_blkProdB_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blkProdB_0 _ _).trans hk
    | ⟨1, _⟩ => exact rhs_blkProdB_1 _ _)
  rw [el, er]

/-- The float zero both programs clamp against, kept as its word. -/
abbrev Z : EReal := Ideal.ofBits .f32 0x00000000#32

/-- The hidden layer of a row block at row p, feature j: relu((x + agg)·Wa + ba). -/
def hidBlk (x0 x1 : Vec Ideal S5000x128 .f32) (x2 : Vec Ideal S128x128 .f32) (x3 : Vec Ideal S1x128 .f32) (p : Fin 5000) (j : Fin 128) : EReal :=
  max ((∑ k : Fin 128, (x0 (ix2 p k) + x1 (ix2 p k)) * x2 (ix2 k j)) + x3 (ix2 (0 : Fin 1) j)) Z

/-- The block the body stores, at row p and column q: relu(hidden(p,·)·Wb + bb), the hidden layer that of row p alone
    (narrowing to bf16 is the identity on extended reals). -/
theorem pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k3_pay1 (F := Ideal) x0 x1 x2 x3 x4 x5 (ix2 p q)
      = max ((∑ j : Fin 128, hidBlk x0 x1 x2 x3 p j * x4 (ix2 j q)) + x5 (ix2 (0 : Fin 1) q)) Z := by
  unfold k3_pay1
  simp only [shapeCast_self]
  rw [maximumf_apply, addf_apply, blkProdB_apply, broadcastTo_1b_ab_apply]
  refine congrArg₂ max (congrArg₂ (· + ·) (Finset.sum_congr rfl fun j _ => congrArg₂ (· * ·) ?_ rfl) rfl) rfl
  rw [truncf_apply, maximumf_apply, addf_apply, blkProdA_apply, broadcastTo_1b_ab_apply]
  rfl

/-! ### The two products of the whole arrays: A is (x + agg)·Wa, B is hidden·Wb -/

theorem lhs_arrProdA_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_arrProdA_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arrProdA_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arrProdA_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (n, q) of the whole product 100000×128 by 128×128 is the plain sum over the 128 inner coordinates. -/
theorem arrProdA_apply (a : FVec Ideal Cert.ReferenceIdeal.S100000x128 .f32) (w : FVec Ideal Cert.ReferenceIdeal.S128x128 .f32) (n : Fin 100000) (q : Fin 128) :
    Host.dotGeneral (F := Ideal) Cert.ReferenceIdeal.dot_S100000x128_S128x128_S100000x128_1_0_0_1_n_n none a w (ix2 n q)
      = ∑ k : Fin 128, a (ix2 n k) * w (ix2 k q) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n q) ((ValueIdx.contrEquiv1 Cert.ReferenceIdeal.dot_S100000x128_S128x128_S100000x128_1_0_0_1_n_n 128 rfl rfl).symm k) = ix2 n k := funext fun a => Fin.ext (by
    match a with
    | ⟨0, _⟩ => exact lhs_arrProdA_0 _ _
    | ⟨1, _⟩ => exact (lhs_arrProdA_1 _ _).trans hk)
  have er : Cert.ReferenceIdeal.dot_S100000x128_S128x128_S100000x128_1_0_0_1_n_n.rhsIdx (ix2 n q) ((ValueIdx.contrEquiv1 Cert.ReferenceIdeal.dot_S100000x128_S128x128_S100000x128_1_0_0_1_n_n 128 rfl rfl).symm k) = ix2 k q := funext fun a => Fin.ext (by
    match a with
    | ⟨0, _⟩ => exact (rhs_arrProdA_0 _ _).trans hk
    | ⟨1, _⟩ => exact rhs_arrProdA_1 _ _)
  rw [el, er]

theorem lhs_arrProdB_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_arrProdB_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_arrProdB_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_arrProdB_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Entry (n, q) of the whole product 100000×128 by 128×128 is the plain sum over the 128 inner coordinates. -/
theorem arrProdB_apply (a : FVec Ideal Cert.ReferenceIdeal.S100000x128 .f32) (w : FVec Ideal Cert.ReferenceIdeal.S128x128 .f32) (n : Fin 100000) (q : Fin 128) :
    Host.dotGeneral (F := Ideal) Cert.ReferenceIdeal.dot_S100000x128_S128x128_S100000x128_1_0_0_1_n_n none a w (ix2 n q)
      = ∑ k : Fin 128, a (ix2 n k) * w (ix2 k q) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 n q) ((ValueIdx.contrEquiv1 Cert.ReferenceIdeal.dot_S100000x128_S128x128_S100000x128_1_0_0_1_n_n 128 rfl rfl).symm k) = ix2 n k := funext fun a => Fin.ext (by
    match a with
    | ⟨0, _⟩ => exact lhs_arrProdB_0 _ _
    | ⟨1, _⟩ => exact (lhs_arrProdB_1 _ _).trans hk)
  have er : Cert.ReferenceIdeal.dot_S100000x128_S128x128_S100000x128_1_0_0_1_n_n.rhsIdx (ix2 n q) ((ValueIdx.contrEquiv1 Cert.ReferenceIdeal.dot_S100000x128_S128x128_S100000x128_1_0_0_1_n_n 128 rfl rfl).symm k) = ix2 k q := funext fun a => Fin.ext (by
    match a with
    | ⟨0, _⟩ => exact (rhs_arrProdB_0 _ _).trans hk
    | ⟨1, _⟩ => exact rhs_arrProdB_1 _ _)
  rw [el, er]

/-- A one-row matrix broadcast over the 100000 rows reads, at (n, q), the row's entry q. -/
theorem rowBcast_apply (h : Cert.ReferenceIdeal.S1x128.BroadcastsInDim Cert.ReferenceIdeal.S100000x128 ![0, 1])
    (b : FVec Ideal Cert.ReferenceIdeal.S1x128 .f32) (n : Fin 100000) (q : Fin 128) :
    broadcastInDim Cert.ReferenceIdeal.S100000x128 ![0, 1] h b (ix2 n q) = b (ix2 (0 : Fin 1) q) :=
  broadcastInDim_apply _ h b (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])

/-- The scalar zero broadcast over the whole array reads the zero word everywhere. -/
theorem zeroBcast_apply (h : Cert.ReferenceIdeal.S_.BroadcastsInDim Cert.ReferenceIdeal.S100000x128 ![]) (i : Cert.ReferenceIdeal.S100000x128.Idx) :
    broadcastInDim Cert.ReferenceIdeal.S100000x128 ![] h (constant (F := Ideal) Cert.ReferenceIdeal.S_ .f32 0x00000000#32) i = Z :=
  broadcastInDim_apply _ h (constant (F := Ideal) Cert.ReferenceIdeal.S_ .f32 0x00000000#32) i (fun a => a.elim0) (fun a => a.elim0)

/-- The hidden layer of the whole array at node n, feature j: relu((x + agg)·Wa + ba). -/
def hidArr (x agg : FVec Ideal Cert.ReferenceIdeal.S100000x128 .f32) (wa : FVec Ideal Cert.ReferenceIdeal.S128x128 .f32) (ba : FVec Ideal Cert.ReferenceIdeal.S1x128 .f32) (n : Fin 100000) (j : Fin 128) : EReal :=
  max ((∑ k : Fin 128, (x (ix2 n k) + agg (ix2 n k)) * wa (ix2 k j)) + ba (ix2 (0 : Fin 1) j)) Z

/-- The node update of the whole arrays at node n, column q: relu(hidden(n,·)·Wb + bb). -/
theorem node_apply (x agg : FVec Ideal Cert.ReferenceIdeal.S100000x128 .f32) (wa : FVec Ideal Cert.ReferenceIdeal.S128x128 .f32) (ba : FVec Ideal Cert.ReferenceIdeal.S1x128 .f32)
    (wb : FVec Ideal Cert.ReferenceIdeal.S128x128 .f32) (bb : FVec Ideal Cert.ReferenceIdeal.S1x128 .f32) (n : Fin 100000) (q : Fin 128) :
    Cert.Spec.node128 (F := Ideal) x agg wa ba wb bb (ix2 n q)
      = max ((∑ j : Fin 128, hidArr x agg wa ba n j * wb (ix2 j q)) + bb (ix2 (0 : Fin 1) q)) Z := by
  unfold Cert.Spec.node128
  rw [maximumf_apply, addf_apply, arrProdB_apply, rowBcast_apply, zeroBcast_apply]
  refine congrArg₂ max (congrArg₂ (· + ·) (Finset.sum_congr rfl fun j _ => congrArg₂ (· * ·) ?_ rfl) rfl) rfl
  rw [maximumf_apply, addf_apply, arrProdA_apply, rowBcast_apply, zeroBcast_apply]
  rfl

/-! ### From a row block to the whole array -/

/-- A block's entry equals the whole-array update's entry as soon as the block's rows of x and agg are the arrays'
    rows at node n and the four parameter blocks are the whole parameter arrays. -/
theorem pay_eq_node (x0 x1 : Vec Ideal S5000x128 .f32) (x2 : Vec Ideal S128x128 .f32) (x3 : Vec Ideal S1x128 .f32)
    (x4 : Vec Ideal S128x128 .f32) (x5 : Vec Ideal S1x128 .f32)
    (X AGG : FVec Ideal Cert.ReferenceIdeal.S100000x128 .f32) (WA : FVec Ideal Cert.ReferenceIdeal.S128x128 .f32) (BA : FVec Ideal Cert.ReferenceIdeal.S1x128 .f32)
    (WB : FVec Ideal Cert.ReferenceIdeal.S128x128 .f32) (BB : FVec Ideal Cert.ReferenceIdeal.S1x128 .f32)
    (p : Fin 5000) (q : Fin 128) (n : Fin 100000) (y : S5000x128.Idx) (i : Cert.ReferenceIdeal.S100000x128.Idx)
    (hy : y = ix2 p q) (hi : i = ix2 n q)
    (h0 : ∀ k : Fin 128, x0 (ix2 p k) = X (ix2 n k)) (h1 : ∀ k : Fin 128, x1 (ix2 p k) = AGG (ix2 n k))
    (h2 : ∀ (k : Fin 128) (j : Fin 128), x2 (ix2 k j) = WA (ix2 k j)) (h3 : ∀ j : Fin 128, x3 (ix2 (0 : Fin 1) j) = BA (ix2 (0 : Fin 1) j))
    (h4 : ∀ (j : Fin 128) (r : Fin 128), x4 (ix2 j r) = WB (ix2 j r)) (h5 : ∀ j : Fin 128, x5 (ix2 (0 : Fin 1) j) = BB (ix2 (0 : Fin 1) j)) :
    k3_pay1 (F := Ideal) x0 x1 x2 x3 x4 x5 y = Cert.Spec.node128 (F := Ideal) X AGG WA BA WB BB i := by
  subst hy hi
  rw [pay_apply, node_apply]
  unfold hidBlk hidArr
  simp only [h0, h1, h2, h3, h4, h5]

theorem hz : (![0, 0] : Fin 2 → Nat) = fun _ => 0 := funext fun a => by fin_cases a <;> rfl

/-- The index maps over the 20 grid points: the x, agg and output blocks are row block t, the parameter blocks are the
    whole arrays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

section Reads
variable (V : (c : Dev nD) → (b : Ref sig .tc) → Buf (Elt Ideal) ((c : Thread nD τ).loc b)) (c : Dev nD) (t : Fin cfg3.N)

/-- Row p of x's block at point t is row 5000·t + p of x. -/
theorem read0 (p : Fin 5000) (k : Fin 128) (n : Fin 100000) (hn : n.val = t.val * 5000 + p.val) :
    iblk3 (F := Ideal) V c 0 t (ix2 p k) = V c main_v12 (ix2 n k) := by
  show V c main_v12 (((cfg3.win 0).blk t).view.emb (ix2 p k)) = V c main_v12 (ix2 n k)
  refine congrArg (V c main_v12) (funext fun a => Fin.ext ?_)
  obtain ⟨e0, e1, -⟩ := idx_facts t
  match a with
  | ⟨0, _⟩ => show win3_0.index t (0 : Fin 2) * 5000 + 1 * p.val = n.val; rw [e0, hn]; omega
  | ⟨1, _⟩ => show win3_0.index t (1 : Fin 2) * 128 + 1 * k.val = k.val; rw [e1]; omega

/-- Row p of agg's block at point t is row 5000·t + p of agg. -/
theorem read1 (p : Fin 5000) (k : Fin 128) (n : Fin 100000) (hn : n.val = t.val * 5000 + p.val) :
    iblk3 (F := Ideal) V c 1 t (ix2 p k) = V c main_v18 (ix2 n k) := by
  show V c main_v18 (((cfg3.win 1).blk t).view.emb (ix2 p k)) = V c main_v18 (ix2 n k)
  refine congrArg (V c main_v18) (funext fun a => Fin.ext ?_)
  obtain ⟨-, -, e0, e1, -⟩ := idx_facts t
  match a with
  | ⟨0, _⟩ => show win3_1.index t (0 : Fin 2) * 5000 + 1 * p.val = n.val; rw [e0, hn]; omega
  | ⟨1, _⟩ => show win3_1.index t (1 : Fin 2) * 128 + 1 * k.val = k.val; rw [e1]; omega

/-- Wa's block is all of Wa at every point. -/
theorem read2 (k : Fin 128) (j : Fin 128) :
    iblk3 (F := Ideal) V c 2 t (ix2 k j) = V c main_arg12 (ix2 k j) := by
  show V c main_arg12 (((cfg3.win 2).blk t).view.emb (ix2 k j)) = V c main_arg12 (ix2 k j)
  refine congrArg (V c main_arg12) (funext fun a => Fin.ext ?_)
  obtain ⟨-, -, -, -, e0, e1, -⟩ := idx_facts t
  match a with
  | ⟨0, _⟩ => show win3_2.index t (0 : Fin 2) * 128 + 1 * k.val = k.val; rw [e0]; omega
  | ⟨1, _⟩ => show win3_2.index t (1 : Fin 2) * 128 + 1 * j.val = j.val; rw [e1]; omega

/-- ba's block is all of the row ba at every point. -/
theorem read3 (j : Fin 128) :
    iblk3 (F := Ideal) V c 3 t (ix2 (0 : Fin 1) j) = V c main_v19 (ix2 (0 : Fin 1) j) := by
  show V c main_v19 (((cfg3.win 3).blk t).view.emb (ix2 (0 : Fin 1) j)) = V c main_v19 (ix2 (0 : Fin 1) j)
  refine congrArg (V c main_v19) (funext fun a => Fin.ext ?_)
  obtain ⟨-, -, -, -, -, -, e0, e1, -⟩ := idx_facts t
  match a with
  | ⟨0, _⟩ => show win3_3.index t (0 : Fin 2) * 1 + 1 * 0 = 0; rw [e0]
  | ⟨1, _⟩ => show win3_3.index t (1 : Fin 2) * 128 + 1 * j.val = j.val; rw [e1]; omega

/-- Wb's block is all of Wb at every point. -/
theorem read4 (j : Fin 128) (r : Fin 128) :
    iblk3 (F := Ideal) V c 4 t (ix2 j r) = V c main_arg14 (ix2 j r) := by
  show V c main_arg14 (((cfg3.win 4).blk t).view.emb (ix2 j r)) = V c main_arg14 (ix2 j r)
  refine congrArg (V c main_arg14) (funext fun a => Fin.ext ?_)
  obtain ⟨-, -, -, -, -, -, -, -, e0, e1, -⟩ := idx_facts t
  match a with
  | ⟨0, _⟩ => show win3_4.index t (0 : Fin 2) * 128 + 1 * j.val = j.val; rw [e0]; omega
  | ⟨1, _⟩ => show win3_4.index t (1 : Fin 2) * 128 + 1 * r.val = r.val; rw [e1]; omega

/-- bb's block is all of the row bb at every point. -/
theorem read5 (j : Fin 128) :
    iblk3 (F := Ideal) V c 5 t (ix2 (0 : Fin 1) j) = V c main_v20 (ix2 (0 : Fin 1) j) := by
  show V c main_v20 (((cfg3.win 5).blk t).view.emb (ix2 (0 : Fin 1) j)) = V c main_v20 (ix2 (0 : Fin 1) j)
  refine congrArg (V c main_v20) (funext fun a => Fin.ext ?_)
  obtain ⟨-, -, -, -, -, -, -, -, -, -, e0, e1, -⟩ := idx_facts t
  match a with
  | ⟨0, _⟩ => show win3_5.index t (0 : Fin 2) * 1 + 1 * 0 = 0; rw [e0]
  | ⟨1, _⟩ => show win3_5.index t (1 : Fin 2) * 128 + 1 * j.val = j.val; rw [e1]; omega

/-- What point t writes back is row block t of the node update of the whole arrays. -/
theorem flushed_eq :
    (dat3 (F := Ideal) V c).flushed 6 t = ((cfg3.win 6).blk t).view.read (Elt Ideal)
      (Cert.Spec.node128 (F := Ideal) (V c main_v12) (V c main_v18) (V c main_arg12) (V c main_v19) (V c main_arg14) (V c main_v20)) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz, View.ld_unit_zero (S := S128x128) hz]
  funext y
  have hy0 : (y 0).val < 5000 := (y 0).isLt
  have ht : t.val < 20 := t.isLt
  obtain ⟨-, -, -, -, -, -, -, -, -, -, -, -, e0, e1⟩ := idx_facts t
  show k3_pay1 (F := Ideal) (iblk3 V c 0 t) (iblk3 V c 1 t) (iblk3 V c 2 t) (iblk3 V c 3 t) (iblk3 V c 4 t) (iblk3 V c 5 t) ((cfg3.win 6).xinj (grid3.coords t) y)
    = Cert.Spec.node128 (F := Ideal) (V c main_v12) (V c main_v18) (V c main_arg12) (V c main_v19) (V c main_arg14) (V c main_v20) (((cfg3.win 6).blk t).view.emb y)
  refine pay_eq_node (iblk3 V c 0 t) (iblk3 V c 1 t) (iblk3 V c 2 t) (iblk3 V c 3 t) (iblk3 V c 4 t) (iblk3 V c 5 t)
    (V c main_v12) (V c main_v18) (V c main_arg12) (V c main_v19) (V c main_arg14) (V c main_v20)
    ⟨(y 0).val, hy0⟩ ⟨(y 1).val, (y 1).isLt⟩ ⟨t.val * 5000 + (y 0).val, by omega⟩ _ _ ?_ ?_
    (fun k => read0 V c t _ k _ rfl) (fun k => read1 V c t _ k _ rfl) (fun k j => read2 V c t k j) (fun j => read3 V c t j)
    (fun j r => read4 V c t j r) (fun j => read5 V c t j)
  · funext a
    match a with
    | ⟨0, _⟩ => rfl
    | ⟨1, _⟩ => rfl
  · funext a
    apply Fin.ext
    match a with
    | ⟨0, _⟩ => show win3_6.index t (0 : Fin 2) * 5000 + 1 * (y 0).val = t.val * 5000 + (y 0).val; rw [e0]; omega
    | ⟨1, _⟩ => show win3_6.index t (1 : Fin 2) * 128 + 1 * (y 1).val = (y 1).val; rw [e1]; omega

end Reads

/-- An index of the output array is in point t's block iff each coordinate is in the block's range on its axis. -/
theorem mem_blk (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v21).slice (win3_6.rect t)).set ↔ _
  rw [View.set_slice_whole, Rect.mem_set_unit]
  exact Iff.rfl

/-- Row r of the output is written by the point r / 5000. -/
theorem cover (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hlt : (i 0).val / 5000 < cfg3.N := by show (i 0).val / 5000 < 20; omega
  refine ⟨⟨(i 0).val / 5000, hlt⟩, flush3_6 _, ?_⟩
  rw [mem_blk]
  obtain ⟨-, -, -, -, -, -, -, -, -, -, -, -, e0, e1⟩ := idx_facts ⟨(i 0).val / 5000, hlt⟩
  intro a
  match a with
  | ⟨0, _⟩ =>
    show win3_6.index ⟨(i 0).val / 5000, hlt⟩ (0 : Fin 2) * 5000 ≤ (i 0).val ∧ (i 0).val < win3_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, hlt⟩ (1 : Fin 2) * 128 ≤ (i 1).val ∧ (i 1).val < win3_6.index ⟨(i 0).val / 5000, hlt⟩ (1 : Fin 2) * 128 + 128
    rw [e1]; omega

end NodeUpdate128

theorem region3 (V : (c : Dev nD) → (b : Ref sig .tc) → Buf (Elt Ideal) ((c : Thread nD τ).loc b)) (c : Dev nD) :
    (dat3 (F := Ideal) V c).arrAt 6 cfg3.N = Cert.Spec.node128 (F := Ideal) (V c main_v12) (V c main_v18) (V c main_arg12) (V c main_v19) (V c main_arg14) (V c main_v20) :=
  (dat3 (F := Ideal) V c).arrAt_eq_of_cover 6 _ (fun t _ => NodeUpdate128.flushed_eq V c t) NodeUpdate128.cover

end Cert.KVal

end
-- ==== Proof.Region4.lean ====
/-
  REGION 4 (the readout, one block).

  The last kernel region applies the two-layer readout to the pooled graph vectors: for a graph `g`
    hidden[g,j] = max ((∑ k, pooled[g,k]·Wm1[k,j]) + bm1[0,j]) 0,    out[g,0] = (∑ j, hidden[g,j]·Wm2[j,0]) + bm2[0,0].
  Its grid has one point and every window's block is its whole array, so the proof has three parts: the stored
  value read at an entry is that formula (a product into a zero accumulator is the plain sum over the contracted
  axis; a change of float format is the identity on extended reals); the whole-array readout `Cert.Spec.readout`
  read at the same entry is the same formula, term for term (nothing is regrouped, so no law of the extended reals
  beyond reading each operation at an index is used); and the one block written back, placed at the origin, covers
  the output array.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«408218_j49898930045492_2_alg».proof.Proof.Gen.KernelIdeal.Frame
import proofs.«408218_j49898930045492_2_alg».proof.Proof.Gen.ReferenceIdeal.Read
import proofs.«408218_j49898930045492_2_alg».proof.Proof.Spec

set_option maxRecDepth 16384

noncomputable section

namespace Cert.KVal

open Idealize.ShloMosaic Idealize.ShloMosaic.TcCoe Idealize.SL.Sem
open Idealize.ShloMosaic.Pipeline (Dat Cfg Window)
open Cert.KernelIdeal Cert.KernelIdeal.Gen
open Idealize.ShloMosaic.ValueIdx

namespace Readout

/-! ## The readout, entry by entry

For a graph `g` the hidden unit `j` is `max ((∑ k, pooled[g,k]·Wm1[k,j]) + bm1[0,j]) 0`, and the one output of
`g` is `(∑ j, hidden[g,j]·Wm2[j,0]) + bm2[0,0]`. Both programs compute exactly this; nothing is regrouped. -/

/-- Hidden unit `j` of graph `g`. -/
def hiddenAt (p : S2048x128.Idx → EReal) (w1 : S128x128.Idx → EReal) (b1 : S1x128.Idx → EReal) (g : Fin 2048) (j : Fin 128) : EReal :=
  max ((∑ k : Fin 128, p (ix2 g k) * w1 (ix2 k j)) + b1 (ix2 (0 : Fin 1) j)) 0

/-- The output of graph `g` (the column index `q` ranges over one value). -/
def readoutAt (p : S2048x128.Idx → EReal) (w1 : S128x128.Idx → EReal) (b1 : S1x128.Idx → EReal) (w2 : S128x1.Idx → EReal) (b2 : S1x1.Idx → EReal)
    (g : Fin 2048) (q : Fin 1) : EReal :=
  (∑ j : Fin 128, hiddenAt p w1 b1 g j * w2 (ix2 j q)) + b2 (ix2 (0 : Fin 1) (0 : Fin 1))

/-! ## The kernel's two products, read at an entry -/

theorem lhs_first_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_first_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_first_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_first_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The first product into a zero accumulator: row `g` of the left factor against column `j` of the right. -/
theorem first_matmul_apply (a : FVec Ideal S2048x128 .bf16) (w : FVec Ideal S128x128 .bf16) (g : Fin 2048) (j : Fin 128) :
    matmul dot_S2048x128_S128x128_S2048x128_1_0_0_1_n_n none a w (constant (F := Ideal) S2048x128 .f32 0x00000000#32) (ix2 g j)
      = ∑ k : Fin 128, a (ix2 g k) * w (ix2 k j) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 g j) ((ValueIdx.contrEquiv1 dot_S2048x128_S128x128_S2048x128_1_0_0_1_n_n 128 rfl rfl).symm k) = ix2 g k := funext fun a => Fin.ext (by
    match a with
    | ⟨0, _⟩ => exact lhs_first_0 _ _
    | ⟨1, _⟩ => exact (lhs_first_1 _ _).trans hk)
  have er : dot_S2048x128_S128x128_S2048x128_1_0_0_1_n_n.rhsIdx (ix2 g j) ((ValueIdx.contrEquiv1 dot_S2048x128_S128x128_S2048x128_1_0_0_1_n_n 128 rfl rfl).symm k) = ix2 k j := funext fun a => Fin.ext (by
    match a with
    | ⟨0, _⟩ => exact (rhs_first_0 _ _).trans hk
    | ⟨1, _⟩ => exact rhs_first_1 _ _)
  rw [el, er]

theorem lhs_second_0 (i : S2048x1.Idx) (q : dot_S2048x128_S128x1_S2048x1_1_0_0_1_n_n.contr.Idx) :
    (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl
theorem lhs_second_1 (i : S2048x1.Idx) (q : dot_S2048x128_S128x1_S2048x1_1_0_0_1_n_n.contr.Idx) :
    (dot_S2048x128_S128x1_S2048x1_1_0_0_1_n_n.lhsIdx i q 1).val = (q ⟨0, by decide⟩).val :=
  dot_S2048x128_S128x1_S2048x1_1_0_0_1_n_n.lhsIdx_val_of_single rfl i q
theorem rhs_second_0 (i : S2048x1.Idx) (q : dot_S2048x128_S128x1_S2048x1_1_0_0_1_n_n.contr.Idx) :
    (dot_S2048x128_S128x1_S2048x1_1_0_0_1_n_n.rhsIdx i q 0).val = (q ⟨0, by decide⟩).val :=
  dot_S2048x128_S128x1_S2048x1_1_0_0_1_n_n.rhsIdx_val_of_single rfl i q
theorem rhs_second_1 (i : S2048x1.Idx) (q : dot_S2048x128_S128x1_S2048x1_1_0_0_1_n_n.contr.Idx) :
    (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl

/-- The second product into a zero accumulator: row `g` of the hidden layer against the one column of the right factor. -/
theorem second_matmul_apply (a : FVec Ideal S2048x128 .bf16) (w : FVec Ideal S128x1 .bf16) (g : Fin 2048) (q : Fin 1) :
    matmul dot_S2048x128_S128x1_S2048x1_1_0_0_1_n_n none a w (constant (F := Ideal) S2048x1 .f32 0x00000000#32) (ix2 g q)
      = ∑ j : Fin 128, a (ix2 g j) * w (ix2 j q) := by
  simp only [matmul]
  rw [Ideal.matmul_constant_zero_apply, ← Equiv.sum_comp (ValueIdx.contrEquiv1 dot_S2048x128_S128x1_S2048x1_1_0_0_1_n_n 128 rfl rfl).symm]
  refine Finset.sum_congr rfl fun k _ => ?_
  have hk := ValueIdx.contrEquiv1_symm_val dot_S2048x128_S128x1_S2048x1_1_0_0_1_n_n 128 rfl rfl k
  have el : dot_S2048x128_S128x1_S2048x1_1_0_0_1_n_n.lhsIdx (ix2 g q) ((ValueIdx.contrEquiv1 dot_S2048x128_S128x1_S2048x1_1_0_0_1_n_n 128 rfl rfl).symm k) = ix2 g k := funext fun a => Fin.ext (by
    match a with
    | ⟨0, _⟩ => exact lhs_second_0 _ _
    | ⟨1, _⟩ => exact (lhs_second_1 _ _).trans hk)
  have er : dot_S2048x128_S128x1_S2048x1_1_0_0_1_n_n.rhsIdx (ix2 g q) ((ValueIdx.contrEquiv1 dot_S2048x128_S128x1_S2048x1_1_0_0_1_n_n 128 rfl rfl).symm k) = ix2 k q := funext fun a => Fin.ext (by
    match a with
    | ⟨0, _⟩ => exact (rhs_second_0 _ _).trans hk
    | ⟨1, _⟩ => exact rhs_second_1 _ _)
  rw [el, er]

/-! ## The two bias rows, spread over the rows -/

/-- A one-row matrix spread over 2048 rows reads its one row. -/
theorem spread_row128_apply (b : S1x128.Idx → EReal) (g : Fin 2048) (j : Fin 128) :
    broadcastTo S2048x128 b broadcasts_S1x128_S2048x128 (ix2 g j) = b (ix2 (0 : Fin 1) j) :=
  broadcastTo_apply b broadcasts_S1x128_S2048x128 (ix2 g j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])

/-- A one-entry matrix spread over 2048 rows reads its one entry. -/
theorem spread_row1_apply (b : S1x1.Idx → EReal) (g : Fin 2048) (q : Fin 1) :
    broadcastTo S2048x1 b broadcasts_S1x1_S2048x1 (ix2 g q) = b (ix2 (0 : Fin 1) (0 : Fin 1)) :=
  broadcastTo_apply b broadcasts_S1x1_S2048x1 (ix2 g q) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-! ## The kernel's stored value at an entry -/

/-- The hidden layer as the kernel forms it, at an entry. -/
theorem kernel_hidden_apply (x0 : Vec Ideal S2048x128 .f32) (x1 : Vec Ideal S128x128 .f32) (x2 : Vec Ideal S1x128 .f32) (g : Fin 2048) (j : Fin 128) :
    (truncf .bf16 (maximumf (addf (matmul dot_S2048x128_S128x128_S2048x128_1_0_0_1_n_n none
        (truncf .bf16 (shapeCast S2048x128 x0 shapeCasts_S2048x128_S2048x128) bitsLt_bf16_f32)
        (truncf .bf16 x1 bitsLt_bf16_f32) (constant (F := Ideal) S2048x128 .f32 0x00000000#32))
        (broadcastTo S2048x128 (shapeCast S1x128 x2 shapeCasts_S1x128_S1x128) broadcasts_S1x128_S2048x128))
        (broadcast S2048x128 (Scalar.ofBits (F := Ideal) .f32 0x00000000#32))) bitsLt_bf16_f32 : FVec Ideal S2048x128 .bf16) (ix2 g j)
      = hiddenAt x0 x1 x2 g j := by
  rw [truncf_apply, maximumf_apply, addf_apply, first_matmul_apply, shapeCast_self, shapeCast_self, spread_row128_apply, broadcast_apply]
  unfold hiddenAt
  rw [show Scalar.ofBits (F := Ideal) .f32 0x00000000#32 = (0 : EReal) from Ideal.ofBits_zero_f32]
  rfl

theorem payload_apply (x0 : Vec Ideal S2048x128 .f32) (x1 : Vec Ideal S128x128 .f32) (x2 : Vec Ideal S1x128 .f32) (x3 : Vec Ideal S128x1 .f32) (x4 : Vec Ideal S1x1 .f32)
    (g : Fin 2048) (q : Fin 1) :
    k4_pay1 (F := Ideal) x0 x1 x2 x3 x4 (ix2 g q) = readoutAt x0 x1 x2 x3 x4 g q := by
  unfold k4_pay1
  rw [addf_apply, second_matmul_apply, spread_row1_apply]
  unfold readoutAt
  refine congrArg₂ (· + ·) (Finset.sum_congr rfl fun j _ => ?_) ?_
  · rw [kernel_hidden_apply]; rfl
  · rw [shapeCast_self]

/-! ## The same entry of the whole-array readout -/

/-- The host's first product, read at an entry. -/
theorem host_first_dot_apply (a : FVec Ideal Cert.ReferenceIdeal.S2048x128 .f32) (w : FVec Ideal Cert.ReferenceIdeal.S128x128 .f32) (g : Fin 2048) (j : Fin 128) :
    Host.dotGeneral (F := Ideal) Cert.ReferenceIdeal.dot_S2048x128_S128x128_S2048x128_1_0_0_1_n_n none a w (ix2 g j) = ∑ k : Fin 128, a (ix2 g k) * w (ix2 k j) := by
  simp only [Host.dotGeneral]
  rw [Ideal.dotGeneral_apply, ← Equiv.sum_comp (ValueIdx.contrEquiv1 Cert.ReferenceIdeal.dot_S2048x128_S128x128_S2048x128_1_0_0_1_n_n 128 rfl rfl).symm]
  refine Finset.sum_congr rfl fun k _ => ?_
  have hk := ValueIdx.contrEquiv1_symm_val Cert.ReferenceIdeal.dot_S2048x128_S128x128_S2048x128_1_0_0_1_n_n 128 rfl rfl k
  have el : (Cert.ReferenceIdeal.dot_S2048x128_S128x128_S2048x128_1_0_0_1_n_n).lhsIdx (ix2 g j) ((ValueIdx.contrEquiv1 Cert.ReferenceIdeal.dot_S2048x128_S128x128_S2048x128_1_0_0_1_n_n 128 rfl rfl).symm k) = ix2 g k := funext fun a => Fin.ext (by
    match a with
    | ⟨0, _⟩ => exact Cert.ReferenceIdeal.Read.lhs_main_v61_0 _ _
    | ⟨1, _⟩ => exact (Cert.ReferenceIdeal.Read.lhs_main_v61_1 _ _).trans hk)
  have er : (Cert.ReferenceIdeal.dot_S2048x128_S128x128_S2048x128_1_0_0_1_n_n).rhsIdx (ix2 g j) ((ValueIdx.contrEquiv1 Cert.ReferenceIdeal.dot_S2048x128_S128x128_S2048x128_1_0_0_1_n_n 128 rfl rfl).symm k) = ix2 k j := funext fun a => Fin.ext (by
    match a with
    | ⟨0, _⟩ => exact (Cert.ReferenceIdeal.Read.rhs_main_v61_0 _ _).trans hk
    | ⟨1, _⟩ => exact Cert.ReferenceIdeal.Read.rhs_main_v61_1 _ _)
  rw [el, er]

/-- The host's second product, read at an entry. -/
theorem host_second_dot_apply (a : FVec Ideal Cert.ReferenceIdeal.S2048x128 .f32) (w : FVec Ideal Cert.ReferenceIdeal.S128x1 .f32) (g : Fin 2048) (q : Fin 1) :
    Host.dotGeneral (F := Ideal) Cert.ReferenceIdeal.dot_S2048x128_S128x1_S2048x1_1_0_0_1_n_n none a w (ix2 g q) = ∑ j : Fin 128, a (ix2 g j) * w (ix2 j q) := by
  simp only [Host.dotGeneral]
  rw [Ideal.dotGeneral_apply, ← Equiv.sum_comp (ValueIdx.contrEquiv1 Cert.ReferenceIdeal.dot_S2048x128_S128x1_S2048x1_1_0_0_1_n_n 128 rfl rfl).symm]
  refine Finset.sum_congr rfl fun k _ => ?_
  have hk := ValueIdx.contrEquiv1_symm_val Cert.ReferenceIdeal.dot_S2048x128_S128x1_S2048x1_1_0_0_1_n_n 128 rfl rfl k
  have el : (Cert.ReferenceIdeal.dot_S2048x128_S128x1_S2048x1_1_0_0_1_n_n).lhsIdx (ix2 g q) ((ValueIdx.contrEquiv1 Cert.ReferenceIdeal.dot_S2048x128_S128x1_S2048x1_1_0_0_1_n_n 128 rfl rfl).symm k) = ix2 g k := funext fun a => Fin.ext (by
    match a with
    | ⟨0, _⟩ => exact Cert.ReferenceIdeal.Read.lhs_main_v66_0 _ _
    | ⟨1, _⟩ => exact (Cert.ReferenceIdeal.Read.lhs_main_v66_1 _ _).trans hk)
  have er : (Cert.ReferenceIdeal.dot_S2048x128_S128x1_S2048x1_1_0_0_1_n_n).rhsIdx (ix2 g q) ((ValueIdx.contrEquiv1 Cert.ReferenceIdeal.dot_S2048x128_S128x1_S2048x1_1_0_0_1_n_n 128 rfl rfl).symm k) = ix2 k q := funext fun a => Fin.ext (by
    match a with
    | ⟨0, _⟩ => exact (Cert.ReferenceIdeal.Read.rhs_main_v66_0 _ _).trans hk
    | ⟨1, _⟩ => exact Cert.ReferenceIdeal.Read.rhs_main_v66_1 _ _)
  rw [el, er]

/-- The host's spread of a one-row matrix over 2048 rows reads its one row. -/
theorem host_spread_row128_apply (b : Cert.ReferenceIdeal.S1x128.Idx → EReal) (g : Fin 2048) (j : Fin 128) :
    broadcastInDim Cert.ReferenceIdeal.S2048x128 ![0, 1] Cert.ReferenceIdeal.Gen.bcast_S1x128_S2048x128_0_1 b (ix2 g j) = b (ix2 (0 : Fin 1) j) :=
  broadcastInDim_apply _ Cert.ReferenceIdeal.Gen.bcast_S1x128_S2048x128_0_1 b (ix2 g j) (ix2 (0 : Fin 1) j) (fun a => match a with
    | ⟨0, _⟩ => by show 0 = if (1 : Nat) = 1 then 0 else _; rw [if_pos rfl]
    | ⟨1, _⟩ => by show j.val = if (128 : Nat) = 1 then 0 else j.val; rw [if_neg (by decide)])

/-- The host's spread of a one-entry matrix over 2048 rows reads its one entry. -/
theorem host_spread_row1_apply (b : Cert.ReferenceIdeal.S1x1.Idx → EReal) (g : Fin 2048) (q : Fin 1) :
    broadcastInDim Cert.ReferenceIdeal.S2048x1 ![0, 1] Cert.ReferenceIdeal.Gen.bcast_S1x1_S2048x1_0_1 b (ix2 g q) = b (ix2 (0 : Fin 1) (0 : Fin 1)) :=
  broadcastInDim_apply _ Cert.ReferenceIdeal.Gen.bcast_S1x1_S2048x1_0_1 b (ix2 g q) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-- The host's zero matrix reads zero. -/
theorem host_zero_apply (i : Cert.ReferenceIdeal.S2048x128.Idx) :
    broadcastInDim Cert.ReferenceIdeal.S2048x128 ![] Cert.ReferenceIdeal.Gen.bcast_S_S2048x128 (constant (F := Ideal) Cert.ReferenceIdeal.S_ .f32 0x00000000#32) i = 0 := by
  rw [broadcastInDim_apply _ Cert.ReferenceIdeal.Gen.bcast_S_S2048x128 _ i (fun a => a.elim0) (fun a => a.elim0), constant_apply, Ideal.ofBits_zero_f32]

/-- The whole-array readout at an entry. -/
theorem readout_apply (p : FVec Ideal Cert.ReferenceIdeal.S2048x128 .f32) (w1 : FVec Ideal Cert.ReferenceIdeal.S128x128 .f32) (b1 : FVec Ideal Cert.ReferenceIdeal.S1x128 .f32)
    (w2 : FVec Ideal Cert.ReferenceIdeal.S128x1 .f32) (b2 : FVec Ideal Cert.ReferenceIdeal.S1x1 .f32) (g : Fin 2048) (q : Fin 1) :
    Cert.Spec.readout (F := Ideal) p w1 b1 w2 b2 (ix2 g q) = readoutAt p w1 b1 w2 b2 g q := by
  unfold Cert.Spec.readout
  rw [addf_apply, host_second_dot_apply, host_spread_row1_apply]
  unfold readoutAt
  refine congrArg₂ (· + ·) (Finset.sum_congr rfl fun j _ => ?_) rfl
  rw [maximumf_apply, addf_apply, host_first_dot_apply, host_spread_row128_apply, host_zero_apply]
  rfl

/-- The kernel's stored block is the whole-array readout of the blocks it loaded. -/
theorem payload_eq_readout (x0 : Vec Ideal S2048x128 .f32) (x1 : Vec Ideal S128x128 .f32) (x2 : Vec Ideal S1x128 .f32) (x3 : Vec Ideal S128x1 .f32) (x4 : Vec Ideal S1x1 .f32) :
    k4_pay1 (F := Ideal) x0 x1 x2 x3 x4 = Cert.Spec.readout (F := Ideal) x0 x1 x2 x3 x4 := by
  funext i
  obtain ⟨g, q, rfl⟩ : ∃ (g : Fin 2048) (q : Fin 1), i = ix2 g q := ⟨i 0, i 1, eq_ix2 i⟩
  rw [payload_apply, readout_apply]

/-! ## From the one block to the array

The grid has one point and every window's block is its whole array at offset zero, so each loaded block IS the
array the region finds, and the one block written back covers the output array. -/

theorem origin_eq : (![0, 0] : Fin 2 → Nat) = fun _ => 0 := funext fun a => by fin_cases a <;> rfl

/-- Every window's block index is zero on both axes, at every point of the grid. -/
theorem block_index_zero : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

section Blocks
variable (V : (c : Dev nD) → (b : Ref sig .tc) → Buf (Elt Ideal) ((c : Thread nD τ).loc b)) (c : Dev nD) (t : Fin cfg4.N)

/-- The pooled block is the pooled array. -/
theorem pooled_block : (iblk4 V c 0 t : Vec Ideal S2048x128 .f32) = V c main_v24 := by
  obtain ⟨e0, e1, -⟩ := block_index_zero t
  funext y
  show V c main_v24 (((cfg4.win 0).blk t).view.emb y) = V c main_v24 y
  refine congrArg _ (funext fun a => Fin.ext ?_)
  match a with
  | ⟨0, _⟩ => show win4_0.index t (0 : Fin 2) * 2048 + 1 * (y 0).val = (y 0).val; omega
  | ⟨1, _⟩ => show win4_0.index t (1 : Fin 2) * 128 + 1 * (y 1).val = (y 1).val; omega

/-- The first weight block is the first weight array. -/
theorem weight1_block : (iblk4 V c 1 t : Vec Ideal S128x128 .f32) = V c main_arg16 := by
  obtain ⟨-, -, e0, e1, -⟩ := block_index_zero t
  funext y
  show V c main_arg16 (((cfg4.win 1).blk t).view.emb y) = V c main_arg16 y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- The first bias block is the first bias row. -/
theorem bias1_block : (iblk4 V c 2 t : Vec Ideal S1x128 .f32) = V c main_v25 := by
  obtain ⟨-, -, -, -, e0, e1, -⟩ := block_index_zero t
  funext y
  show V c main_v25 (((cfg4.win 2).blk t).view.emb y) = V c main_v25 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The second weight block is the second weight array. -/
theorem weight2_block : (iblk4 V c 3 t : Vec Ideal S128x1 .f32) = V c main_arg18 := by
  obtain ⟨-, -, -, -, -, -, e0, e1, -⟩ := block_index_zero t
  funext y
  show V c main_arg18 (((cfg4.win 3).blk t).view.emb y) = V c main_arg18 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 1 + 1 * (y 1).val = (y 1).val; omega

/-- The second bias block is the second bias entry. -/
theorem bias2_block : (iblk4 V c 4 t : Vec Ideal S1x1 .f32) = V c main_v26 := by
  obtain ⟨-, -, -, -, -, -, -, -, e0, e1, -⟩ := block_index_zero t
  funext y
  show V c main_v26 (((cfg4.win 4).blk t).view.emb y) = V c main_v26 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 1 + 1 * (y 1).val = (y 1).val; omega

/-- An entry of the output's one block sits at the same place in the array. -/
theorem output_block_place (y : S2048x1.Idx) : ((cfg4.win 5).blk t).view.emb y = y := by
  obtain ⟨-, -, -, -, -, -, -, -, -, -, e0, e1⟩ := block_index_zero t
  refine funext fun a => Fin.ext ?_
  match a with
  | ⟨0, _⟩ => show win4_5.index t (0 : Fin 2) * 2048 + 1 * (y 0).val = (y 0).val; omega
  | ⟨1, _⟩ => show win4_5.index t (1 : Fin 2) * 1 + 1 * (y 1).val = (y 1).val; omega

/-- What the one point writes back is the block of the whole-array readout of the entry arrays. -/
theorem written_back_eq :
    (dat4 (F := Ideal) V c).flushed 5 t = ((cfg4.win 5).blk t).view.read (Elt Ideal)
      (Cert.Spec.readout (F := Ideal) (V c main_v24) (V c main_arg16) (V c main_v25) (V c main_arg18) (V c main_v26)) := by
  show (cfg4.win 5).cut (grid4.coords t) ((dat4 V c).after 5 t) = _
  rw [after4_5]
  unfold out4_5
  rw [View.canon_unit_zero origin_eq]
  simp only [View.ld_unit_zero (S := S2048x128) origin_eq, View.ld_unit_zero (S := S128x128) origin_eq, View.ld_unit_zero (S := S1x128) origin_eq,
    View.ld_unit_zero (S := S128x1) origin_eq, View.ld_unit_zero (S := S1x1) origin_eq]
  rw [payload_eq_readout, pooled_block, weight1_block, bias1_block, weight2_block, bias2_block]
  funext y
  show Cert.Spec.readout (F := Ideal) (V c main_v24) (V c main_arg16) (V c main_v25) (V c main_arg18) (V c main_v26) y = Cert.Spec.readout (F := Ideal) (V c main_v24) (V c main_arg16) (V c main_v25) (V c main_arg18) (V c main_v26) (((cfg4.win 5).blk t).view.emb y)
  rw [output_block_place]

end Blocks

/-- An index of the output array is in the one point's block iff each coordinate is in the block's range on its axis. -/
theorem mem_output_block (t : Fin cfg4.N) (i : S2048x1.Idx) :
    i ∈ ((cfg4.win 5).blk t).view.set ↔ ∀ a : Fin 2, win4_5.index t a * S2048x1.size a ≤ (i a).val ∧ (i a).val < win4_5.index t a * S2048x1.size a + S2048x1.size a := by
  show i ∈ ((View.whole main_v27).slice (win4_5.rect t)).set ↔ _
  rw [View.set_slice_whole, Rect.mem_set_unit]
  exact Iff.rfl

/-- The one block covers the output array: it starts at the origin and is as large as the array. -/
theorem output_covered (i : S2048x1.Idx) : ∃ t : Fin cfg4.N, (cfg4.win 5).flush t = true ∧ i ∈ ((cfg4.win 5).blk t).view.set := by
  refine ⟨t4_0, flush4_5 t4_0, ?_⟩
  rw [mem_output_block]
  obtain ⟨-, -, -, -, -, -, -, -, -, -, e0, e1⟩ := block_index_zero t4_0
  intro a
  have h0 : (i 0).val < 2048 := (i 0).isLt
  have h1 : (i 1).val < 1 := (i 1).isLt
  match a with
  | ⟨0, _⟩ => show win4_5.index t4_0 (0 : Fin 2) * 2048 ≤ (i 0).val ∧ (i 0).val < win4_5.index t4_0 (0 : Fin 2) * 2048 + 2048; omega
  | ⟨1, _⟩ => show win4_5.index t4_0 (1 : Fin 2) * 1 ≤ (i 1).val ∧ (i 1).val < win4_5.index t4_0 (1 : Fin 2) * 1 + 1; omega

end Readout

/-- After the region the output array holds the readout of the arrays the region found:
    out[g,0] = (∑ j, max ((∑ k, pooled[g,k]·Wm1[k,j]) + bm1[0,j]) 0 · Wm2[j,0]) + bm2[0,0]. -/
theorem region4 (V : (c : Dev nD) → (b : Ref sig .tc) → Buf (Elt Ideal) ((c : Thread nD τ).loc b)) (c : Dev nD) :
    (dat4 (F := Ideal) V c).arrAt 5 cfg4.N = Cert.Spec.readout (F := Ideal) (V c main_v24) (V c main_arg16) (V c main_v25) (V c main_arg18) (V c main_v26) := by
  exact (dat4 (F := Ideal) V c).arrAt_eq_of_cover 5 _ (fun t _ => Readout.written_back_eq V c t) Readout.output_covered

end Cert.KVal

end
-- ==== Proof.lean ====
/-
  Kernel j49898930045492/2 against its reference: a two-layer GINE message-passing network with a pooled MLP readout.
  Both programs compute, on the extended reals, msg = relu(x[src] + edge_attr·We + be) per edge, agg = the sum of the
  messages at each target node, h = relu(relu((x + agg)·Wa + ba)·Wb + bb) per node, twice, then per graph the sum of
  its nodes' rows and relu(pooled·Wm1 + bm1)·Wm2 + bm2. The kernel program runs the per-edge and per-node stages and
  the readout as five blocked kernels and gathers / scatter-adds on the host between them; the reference is host
  operations throughout. Stage by stage the two are the same function (Spec.lean): a kernel region's blocks assemble
  to the stage's whole-array function (Region0 … Region4: a matrix product block by block is the whole product's rows;
  (x + lin) + b = x + (lin + b) on the extended reals, where + is associative); the scatter-adds are the same host
  operation on equal operands; and the kernel's filling gather is the reference's clamping gather because the
  precondition puts every source index in [0, 100000) (Take.lean). The kernel's result is read off the fold of its
  program's segments (Chain.lean over the run of KRun.lean), the reference's off its composed term (RefSpec.lean).
  The frames are the generated frame certificates; the ideal pass rewrote nothing, so there is nothing to preserve.
-/
import proofs.«408218_j49898930045492_2_alg».proof.Defs
import proofs.«408218_j49898930045492_2_alg».proof.Proof.Gen.Kernel
import proofs.«408218_j49898930045492_2_alg».proof.Proof.Gen.Kernel.Skeleton
import proofs.«408218_j49898930045492_2_alg».proof.Proof.Gen.Kernel.Launch
import proofs.«408218_j49898930045492_2_alg».proof.Proof.Gen.Kernel.Points
import proofs.«408218_j49898930045492_2_alg».proof.Proof.Gen.Kernel.Frame
import proofs.«408218_j49898930045492_2_alg».proof.Proof.Gen.KernelIdeal
import proofs.«408218_j49898930045492_2_alg».proof.Proof.Gen.KernelIdeal.Skeleton
import proofs.«408218_j49898930045492_2_alg».proof.Proof.Gen.KernelIdeal.Launch
import proofs.«408218_j49898930045492_2_alg».proof.Proof.Gen.KernelIdeal.Points
import proofs.«408218_j49898930045492_2_alg».proof.Proof.Gen.KernelIdeal.Frame
import proofs.«408218_j49898930045492_2_alg».proof.Proof.Gen.ReferenceIdeal
import proofs.«408218_j49898930045492_2_alg».proof.Proof.Gen.Pre_finite_inputs
import proofs.«408218_j49898930045492_2_alg».proof.Proof.Gen.ReferenceIdeal.Run
import proofs.«408218_j49898930045492_2_alg».proof.Proof.Gen.ReferenceIdeal.Read
import proofs.«408218_j49898930045492_2_alg».proof.Proof.Spec
import proofs.«408218_j49898930045492_2_alg».proof.Proof.RefSpec
import proofs.«408218_j49898930045492_2_alg».proof.Proof.KRun
import proofs.«408218_j49898930045492_2_alg».proof.Proof.TakeDefs
import proofs.«408218_j49898930045492_2_alg».proof.Proof.Take
import proofs.«408218_j49898930045492_2_alg».proof.Proof.Rows
import proofs.«408218_j49898930045492_2_alg».proof.Proof.Chain
import proofs.«408218_j49898930045492_2_alg».proof.Proof.Region0
import proofs.«408218_j49898930045492_2_alg».proof.Proof.Region1
import proofs.«408218_j49898930045492_2_alg».proof.Proof.Region2
import proofs.«408218_j49898930045492_2_alg».proof.Proof.Region3
import proofs.«408218_j49898930045492_2_alg».proof.Proof.Region4
import Idealize.ShloMosaic.Adequacy
import Idealize.ShloMosaic.Init

noncomputable section

namespace Cert.Proof

open Idealize.ShloMosaic Idealize.ShloMosaic.TcCoe Idealize.SL.Sem

/-- The word-level program's frame: the generated frame certificate. -/
theorem frame_kernel : Cert.frame_Kernel := fun m ρ _ => Cert.Kernel.Gen.frame m ρ

/-- The idealized program's frame: the generated frame certificate. -/
theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end with the network of Spec.lean applied to the (agreeing) argument arrays: the kernel's by the
    fold of its segments (the five regions' stage functions, the filling take a plain gather because the precondition
    puts every source index in range), the reference's because its composed term is that network. -/
theorem algebraic : Cert.algebraic_KernelIdeal_ReferenceIdeal := by
  intro m ρ m' ρ' hpre hagree
  have hs : ∀ c : Dev Cert.KernelIdeal.nD, Cert.KTake.InRange (Cert.Spec.src (m ((c : Thread Cert.KernelIdeal.nD Cert.KernelIdeal.τ).loc Cert.KernelIdeal.main_arg1))) :=
    fun c => Cert.KTake.inRange_of_pre (F := Ideal) _ _ _ _ _ _ _ _ _ _ _ _ _ _ _ _ _ _ _ _ (hpre c)
  refine ⟨fun c => Cert.KernelIdeal.Gen.W13 m ρ c (Proc.devRef .tc Cert.KernelIdeal.main_v27), Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  rw [Cert.RefSpec.res_eq]
  unfold Cert.RefSpec.out
  obtain ⟨e0, e1, e2, e3, e4, e5, e6, e7, e8, e9, e10, e11, e12, e13, e14, e15, e16, e17, e18, e19⟩ := hagree c
  rw [e0, e1, e2, e3, e4, e5, e6, e7, e8, e9, e10, e11, e12, e13, e14, e15, e16, e17, e18, e19]
  exact (Cert.KChain.result m ρ (fun c x => Cert.KTake.take32_eq x _ (hs c)) (fun c x => Cert.KTake.take128_eq x _ (hs c))
    Cert.KVal.region0 Cert.KVal.region1 Cert.KVal.region2 Cert.KVal.region3 Cert.KVal.region4 c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
